-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x3 : Shape := ⟨3, ![32, 256, 3]⟩
abbrev S32x128 : Shape := ⟨2, ![32, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S32x256x3 : S_.BroadcastsInDim S32x256x3 (![] : Fin 0 → Fin S32x256x3.rank)
  reducesTo_S32x256x3_S_d0_1_2 : S32x256x3.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x256x3 .f32) (main_arg1 : FVec F S32x128 .f32) (main_arg2 : FVec F S128 .f32) (main_arg3 : FVec F S128x64 .f32) (main_arg4 : FVec F S64 .f32) : IVec S_ 1 :=
  let main_v0 : FVec F S32x256x3 .f32 := Host.absf main_arg0
  let main_cst : FVec F S_ .f32 := constant S_ .f32 0x7F800000#32
  let main_v1 : FVec F S32x256x3 .f32 := broadcastInDim S32x256x3 ![] bcast_S_S32x256x3 main_cst
  let main_v2 : IVec S32x256x3 1 := cmpf .olt main_v0 main_v1
  let main_c : IVec S_ 1 := constantI S_ 1 1#1
  let main_v3 : IVec S_ 1 := (fun x v => Host.reduce IntOp.andi x v reducesTo_S32x256x3_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S32x256x3 : Shape := ⟨3, ![32, 256, 3]⟩
abbrev S32x128 : Shape := ⟨2, ![32, 128]⟩
abbrev S128 : Shape := ⟨1, ![128]⟩
abbrev S128x64 : Shape := ⟨2, ![128, 64]⟩
abbrev S64 : Shape := ⟨1, ![64]⟩
abbrev S32x3x256 : Shape := ⟨3, ![32, 3, 256]⟩
abbrev S32x64 : Shape := ⟨2, ![32, 64]⟩
abbrev S16x3x256 : Shape := ⟨3, ![16, 3, 256]⟩
abbrev S16x64 : Shape := ⟨2, ![16, 64]⟩
abbrev S16x256x256 : Shape := ⟨3, ![16, 256, 256]⟩
abbrev S16x1x256 : Shape := ⟨3, ![16, 1, 256]⟩
abbrev S16x256 : Shape := ⟨2, ![16, 256]⟩
abbrev S16x256x1 : Shape := ⟨3, ![16, 256, 1]⟩
abbrev S16 : Shape := ⟨1, ![16]⟩
abbrev S16x1 : Shape := ⟨2, ![16, 1]⟩
abbrev S16x32 : Shape := ⟨2, ![16, 32]⟩
abbrev S16x128 : Shape := ⟨2, ![16, 128]⟩
abbrev S1x128 : Shape := ⟨2, ![1, 128]⟩
abbrev S1x64 : Shape := ⟨2, ![1, 64]⟩

abbrev nBuf : Space → Nat
  | .hbm => 7
  | .vmem => 8
  | .smem => 0
  | _ => 0

abbrev bufTy : (tb : Table) → Fin (tcTables nBuf tb) → BufTy
  | .hbm, ⟨0, _⟩ => ⟨S32x256x3, .f32⟩
  | .hbm, ⟨1, _⟩ => ⟨S32x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S32x3x256, .f32⟩
  | .hbm, ⟨6, _⟩ => ⟨S32x64, .f32⟩
  | .local _ .vmem, ⟨0, _⟩ => ⟨S16x3x256, .f32⟩
  | .local _ .vmem, ⟨1, _⟩ => ⟨S16x3x256, .f32⟩
  | .local _ .vmem, ⟨2, _⟩ => ⟨S32x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S16x64, .f32⟩
  | .local _ .vmem, ⟨7, _⟩ => ⟨S16x64, .f32⟩
  | _, _ => ⟨S32x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S32x256x3_S32x3x256_0_2_1 : S32x256x3.Transposes [0, 2, 1] S32x3x256
  inb_S16x3x256_S16x3x256_0_0_0 : ∀ a, (![0, 0, 0] : Fin 3 → Nat) a + S16x3x256.size a ≤ S16x3x256.size a
  h_S16x3x256 : 0 < S16x3x256.numel
  shapeCasts_S16x3x256_S16x3x256 : S16x3x256.ShapeCasts S16x3x256
  slices_S16x3x256_o0_0_0_S16x1x256 : S16x3x256.Slices ![0, 0, 0] S16x1x256
  shapeCasts_S16x1x256_S16x256 : S16x1x256.ShapeCasts S16x256
  shapeCasts_S16x256_S16x256x1 : S16x256.ShapeCasts S16x256x1
  shapeCasts_S16x256_S16x1x256 : S16x256.ShapeCasts S16x1x256
  broadcasts_S16x256x1_S16x256x256 : S16x256x1.Broadcasts S16x256x256
  broadcasts_S16x1x256_S16x256x256 : S16x1x256.Broadcasts S16x256x256
  slices_S16x3x256_o0_1_0_S16x1x256 : S16x3x256.Slices ![0, 1, 0] S16x1x256
  slices_S16x3x256_o0_2_0_S16x1x256 : S16x3x256.Slices ![0, 2, 0] S16x1x256
  natLt_1_32 : 1 < 32
  reduces_S16x256x256_S16x256 : S16x256x256.Reduces [2] S16x256
  reduces_S16x256_S16 : S16x256.Reduces [1] S16
  shapeCasts_S16_S16x1 : S16.ShapeCasts S16x1
  concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x32_d1 : Shape.Concatenates [S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1, S16x1] S16x32 1
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S16x128 : S1x128.Broadcasts S16x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16x64 : S1x64.Broadcasts S16x64
  inb_S16x64_S16x64_0_0 : ∀ a, (![0, 0] : Fin 2 → Nat) a + S16x64.size a ≤ S16x64.size a
  h_S16x64 : 0 < S16x64.numel
  dot_S16x32_S32x128_S16x128_1_0_0_1_n_n_wf : DotDims.WF S16x32 S32x128 S16x128 [1] [0] [0] [1] [] []
  dot_S16x128_S128x64_S16x64_1_0_0_1_n_n_wf : DotDims.WF S16x128 S128x64 S16x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x256.size a ≤ S32x3x256.size a
  hwx0_0 : ∀ i : grid0.Coords, EltTy.bits .f32 = 32 ∨ (Rect.block (s := S32x3x256) S16x3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S32x64.size a
  hwx0_5 : ∀ i : grid0.Coords, EltTy.bits .f32 = 32 ∨ (Rect.block (s := S32x64) S16x64.size (cc0_transform_5 i) (hinb0_5 i)).WholeWords (EltTy.packing .f32)

variable [Facts₀]

def dot_S16x32_S32x128_S16x128_1_0_0_1_n_n : DotDims S16x32 S32x128 S16x128 where
  lhsContracting := [1]
  rhsContracting := [0]
  lhsNonContracting := [0]
  rhsNonContracting := [1]
  lhsBatch := []
  rhsBatch := []
  wf := dot_S16x32_S32x128_S16x128_1_0_0_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf

abbrev win0_0 : Pipeline.Window sig grid0 :=
  Pipeline.Window.ofSpec (Memref.whole main_v0) S16x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x3 : Shape := ⟨3, ![32, 256, 3]⟩
abbrev S32x128 : Shape := ⟨2, ![32, 128]⟩
abbrev S128 : Shape := ⟨1, ![128]⟩
abbrev S128x64 : Shape := ⟨2, ![128, 64]⟩
abbrev S64 : Shape := ⟨1, ![64]⟩
abbrev S32 : Shape := ⟨1, ![32]⟩
abbrev S_ : Shape := ⟨0, ![]⟩
abbrev S32x256 : Shape := ⟨2, ![32, 256]⟩
abbrev S32x256x1 : Shape := ⟨3, ![32, 256, 1]⟩
abbrev S32x1x256 : Shape := ⟨3, ![32, 1, 256]⟩
abbrev S32x256x256 : Shape := ⟨3, ![32, 256, 256]⟩
abbrev S256x256 : Shape := ⟨2, ![256, 256]⟩
abbrev S32x256x256x1 : Shape := ⟨4, ![32, 256, 256, 1]⟩
abbrev S1x1x1x32 : Shape := ⟨4, ![1, 1, 1, 32]⟩
abbrev S32x256x256x32 : Shape := ⟨4, ![32, 256, 256, 32]⟩
abbrev S1x256x256x1 : Shape := ⟨4, ![1, 256, 256, 1]⟩
abbrev S32x32 : Shape := ⟨2, ![32, 32]⟩
abbrev S1x128 : Shape := ⟨2, ![1, 128]⟩
abbrev S32x64 : Shape := ⟨2, ![32, 64]⟩
abbrev S1x64 : Shape := ⟨2, ![1, 64]⟩

abbrev nBuf : Space → Nat
  | .hbm => 60
  | .vmem => 0
  | .smem => 0
  | _ => 0

abbrev bufTy : (tb : Table) → Fin (tcTables nBuf tb) → BufTy
  | .hbm, ⟨0, _⟩ => ⟨S32x256x3, .f32⟩
  | .hbm, ⟨1, _⟩ => ⟨S32x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S32, .f32⟩
  | .hbm, ⟨6, _⟩ => ⟨S32x256x3, .f32⟩
  | .hbm, ⟨7, _⟩ => ⟨S_, .f32⟩
  | .hbm, ⟨8, _⟩ => ⟨S32x256, .f32⟩
  | .hbm, ⟨9, _⟩ => ⟨S32x256x1, .f32⟩
  | .hbm, ⟨10, _⟩ => ⟨S32x1x256, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S_, .f32⟩
  | .hbm, ⟨16, _⟩ => ⟨S32x256x256, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S32x256x256, .f32⟩
  | .hbm, ⟨23, _⟩ => ⟨S_, .i1⟩
  | .hbm, ⟨24, _⟩ => ⟨S256x256, .i1⟩
  | .hbm, ⟨25, _⟩ => ⟨S256x256, .i32⟩
  | .hbm, ⟨26, _⟩ => ⟨S_, .i32⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S_, .i1⟩
  | .hbm, ⟨32, _⟩ => ⟨S256x256, .i1⟩
  | .hbm, ⟨33, _⟩ => ⟨S256x256, .i1⟩
  | .hbm, ⟨34, _⟩ => ⟨S32x256x256x1, .f32⟩
  | .hbm, ⟨35, _⟩ => ⟨S1x1x1x32, .f32⟩
  | .hbm, ⟨36, _⟩ => ⟨S32x256x256x32, .f32⟩
  | .hbm, ⟨37, _⟩ => ⟨S32x256x256x32, .f32⟩
  | .hbm, ⟨38, _⟩ => ⟨S32x256x256x32, .i1⟩
  | .hbm, ⟨39, _⟩ => ⟨S1x256x256x1, .i1⟩
  | .hbm, ⟨40, _⟩ => ⟨S32x256x256x32, .i1⟩
  | .hbm, ⟨41, _⟩ => ⟨S32x256x256x32, .i1⟩
  | .hbm, ⟨42, _⟩ => ⟨S32x256x256x32, .i32⟩
  | .hbm, ⟨43, _⟩ => ⟨S_, .i32⟩
  | .hbm, ⟨44, _⟩ => ⟨S32x32, .i32⟩
  | .hbm, ⟨45, _⟩ => ⟨S32x32, .f32⟩
  | .hbm, ⟨46, _⟩ => ⟨S_, .f32⟩
  | .hbm, ⟨47, _⟩ => ⟨S32x32, .f32⟩
  | .hbm, ⟨48, _⟩ => ⟨S32x32, .f32⟩
  | .hbm, ⟨49, _⟩ => ⟨S32x128, .f32⟩
  | .hbm, ⟨50, _⟩ => ⟨S1x128, .f32⟩
  | .hbm, ⟨51, _⟩ => ⟨S32x128, .f32⟩
  | .hbm, ⟨52, _⟩ => ⟨S32x128, .f32⟩
  | .hbm, ⟨53, _⟩ => ⟨S_, .f32⟩
  | .hbm, ⟨54, _⟩ => ⟨S32x128, .f32⟩
  | .hbm, ⟨55, _⟩ => ⟨S32x128, .f32⟩
  | .hbm, ⟨56, _⟩ => ⟨S32x64, .f32⟩
  | .hbm, ⟨57, _⟩ => ⟨S1x64, .f32⟩
  | .hbm, ⟨58, _⟩ => ⟨S32x64, .f32⟩
  | .hbm, ⟨59, _⟩ => ⟨S32x64, .f32⟩
  | _, _ => ⟨S32x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_cst : Ref sig .tc := ⟨.hbm, 53, rfl⟩
abbrev main_call1_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  reducesTo_S32x256x3_S32x256_d2 : S32x256x3.ReducesTo [2] S32x256
  h_S_ : 0 < S_.numel
  bcast_S32x256_S32x256x1_0_1 : S32x256.BroadcastsInDim S32x256x1 (![0, 1] : Fin 2 → Fin S32x256x1.rank)
  bcast_S32x256_S32x1x256_0_2 : S32x256.BroadcastsInDim S32x1x256 (![0, 2] : Fin 2 → Fin S32x1x256.rank)
  bcast_S32x256x1_S32x256x256_0_1_2 : S32x256x1.BroadcastsInDim S32x256x256 (![0, 1, 2] : Fin 3 → Fin S32x256x256.rank)
  bcast_S32x1x256_S32x256x256_0_1_2 : S32x1x256.BroadcastsInDim S32x256x256 (![0, 1, 2] : Fin 3 → Fin S32x256x256.rank)
  bcast_S_S32x256x256 : S_.BroadcastsInDim S32x256x256 (![] : Fin 0 → Fin S32x256x256.rank)
  bcast_S_S256x256 : S_.BroadcastsInDim S256x256 (![] : Fin 0 → Fin S256x256.rank)
  bcast_S32x256x256_S32x256x256x1_0_1_2 : S32x256x256.BroadcastsInDim S32x256x256x1 (![0, 1, 2] : Fin 3 → Fin S32x256x256x1.rank)
  bcast_S32_S1x1x1x32_3 : S32.BroadcastsInDim S1x1x1x32 (![3] : Fin 1 → Fin S1x1x1x32.rank)
  bcast_S32x256x256x1_S32x256x256x32_0_1_2_3 : S32x256x256x1.BroadcastsInDim S32x256x256x32 (![0, 1, 2, 3] : Fin 4 → Fin S32x256x256x32.rank)
  bcast_S1x1x1x32_S32x256x256x32_0_1_2_3 : S1x1x1x32.BroadcastsInDim S32x256x256x32 (![0, 1, 2, 3] : Fin 4 → Fin S32x256x256x32.rank)
  bcast_S256x256_S1x256x256x1_1_2 : S256x256.BroadcastsInDim S1x256x256x1 (![1, 2] : Fin 2 → Fin S1x256x256x1.rank)
  bcast_S1x256x256x1_S32x256x256x32_0_1_2_3 : S1x256x256x1.BroadcastsInDim S32x256x256x32 (![0, 1, 2, 3] : Fin 4 → Fin S32x256x256x32.rank)
  natLt_1_32 : 1 < 32
  reducesTo_S32x256x256x32_S32x32_d1_2 : S32x256x256x32.ReducesTo [1, 2] S32x32
  bcast_S_S32x32 : S_.BroadcastsInDim S32x32 (![] : Fin 0 → Fin S32x32.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S64_S1x64_1 : S64.BroadcastsInDim S1x64 (![1] : Fin 1 → Fin S1x64.rank)
  bcast_S1x64_S32x64_0_1 : S1x64.BroadcastsInDim S32x64 (![0, 1] : Fin 2 → Fin S32x64.rank)
  dot_S32x256x3_S32x256x3_S32x256x256_2_2_1_1_0_0_wf : DotDims.WF S32x256x3 S32x256x3 S32x256x256 [2] [2] [1] [1] [0] [0]
  dot_S32x32_S32x128_S32x128_1_0_0_1_n_n_wf : DotDims.WF S32x32 S32x128 S32x128 [1] [0] [0] [1] [] []
  dot_S32x128_S128x64_S32x64_1_0_0_1_n_n_wf : DotDims.WF S32x128 S128x64 S32x64 [1] [0] [0] [1] [] []

variable [Facts₀]

def dot_S32x256x3_S32x256x3_S32x256x256_2_2_1_1_0_0 : DotDims S32x256x3 S32x256x3 S32x256x256 where
  lhsContracting := [2]
  rhsContracting := [2]
  lhsNonContracting := [1]
  rhsNonContracting := [1]
  lhsBatch := [0]
  rhsBatch := [0]
  wf := dot_S32x256x3_S32x256x3_S32x256x256_2_2_1_1_0_0_wf
def dot_S32x32_S32x128_S32x128_1_0_0_1_n_n : DotDims S32x32 S32x128 S32x128 where
  lhsContracting := [1]
  rhsContracting := [0]
  lhsNonContracting := [0]
  rhsNonContracting := [1]
  lhsBatch := []
  rhsBatch := []
  wf := dot_S32x32_S32x128_S32x128_1_0_0_1_n_n_wf
def dot_S32x128_S128x64_S32x64_1_0_0_1_n_n : DotDims S32x128 S128x64 S32x64 where
  lhsContracting := [1]
  rhsContracting := [0]
  lhsNonContracting := [0]
  rhsNonContracting := [1]
  lhsBatch := []
  rhsBatch := []
  wf := dot_S32x128_S128x64_S32x64_1_0_0_1_n_n_wf

class Facts : Prop extends Facts₀ where

variable [Facts]
-- ==== Proof.Thresholds.lean ====
/-
  The thirty-two filtration thresholds, as the f32 words both programs carry, and what the other float
  literals of the two programs denote on the extended reals.

  Both programs compare every pairwise distance with the same thirty-two words: the table below is the
  reference's dense constant and, entry by entry, the scalar constants of the kernel's thirty-two passes.
  Nothing is ever computed FROM a threshold, so the only fact needed about one is its sign: each word has a
  clear sign bit and a finite exponent, hence denotes a nonnegative real. That is what lets a zero distance
  (the diagonal of the distance matrix) fall under every threshold.

  The other literals are exact dyadic numbers: 1/2, 2, 256 and 384. Each is a normal word with a clear sign bit,
  and such a word with exponent field E and fraction field T denotes (2^23 + T) · 2^(E - 150); the four values
  are that formula at (E, T) = (126, 0), (128, 0), (135, 0) and (135, 2^22).
-/
import Idealize.ShloMosaic.PureOps.Ideal
import Idealize.ShloMosaic.PureOps.Ideal.Laws

noncomputable section

namespace Cert.Rips

open Idealize.ShloMosaic

/-- The thresholds' words, in filtration order: `k · 2/31` rounded to f32, `k = 0 … 31`. -/
def thrW : Fin 32 → BitVec 32 := fun
  | 0 => 0x00000000#32 | 1 => 0x3D842108#32 | 2 => 0x3E042108#32 | 3 => 0x3E46318C#32 | 4 => 0x3E842108#32 | 5 => 0x3EA5294A#32 | 6 => 0x3EC6318C#32 | 7 => 0x3EE739CE#32
  | 8 => 0x3F042108#32 | 9 => 0x3F14A529#32 | 10 => 0x3F25294A#32 | 11 => 0x3F35AD6B#32 | 12 => 0x3F46318C#32 | 13 => 0x3F56B5AD#32 | 14 => 0x3F6739CE#32 | 15 => 0x3F77BDEF#32
  | 16 => 0x3F842108#32 | 17 => 0x3F8C6318#32 | 18 => 0x3F94A529#32 | 19 => 0x3F9CE73A#32 | 20 => 0x3FA5294A#32 | 21 => 0x3FAD6B5A#32 | 22 => 0x3FB5AD6B#32 | 23 => 0x3FBDEF7C#32
  | 24 => 0x3FC6318C#32 | 25 => 0x3FCE739C#32 | 26 => 0x3FD6B5AD#32 | 27 => 0x3FDEF7BE#32 | 28 => 0x3FE739CE#32 | 29 => 0x3FEF7BDE#32 | 30 => 0x3FF7BDEF#32 | 31 => 0x40000000#32
  | _ => 0#32

/-- Threshold `s` as an extended real. -/
def thr (s : Fin 32) : EReal := Ideal.ofBits .f32 (thrW s)

/-- A word with a clear sign bit and an exponent field that is not all ones denotes a nonnegative real:
    in the zero-or-subnormal branch it is `T · 2^(1-127-23)`, in the normal branch `(2^23 + T) · 2^(E-127-23)`,
    a natural number times a positive power of two either way. -/
private theorem ieee_f32_nonneg (b : BitVec 32)
    (hs : b.extractLsb' 31 1 = 0#1) (h255 : (b.extractLsb' 23 8).toNat ≠ 255) :
    0 ≤ Ideal.ieee 8 23 b := by
  unfold Ideal.ieee
  simp only [Nat.reduceAdd, Nat.reducePow, Nat.reduceSub, hs]
  generalize (b.extractLsb' 23 8).toNat = ex at h255 ⊢
  generalize (b.extractLsb' 0 23).toNat = fr
  have hsg : ¬ ((0#1 == 1#1) = true) := by decide
  rw [if_neg h255, if_neg hsg]
  split_ifs with h0
  · exact EReal.coe_nonneg.mpr (by positivity)
  · exact EReal.coe_nonneg.mpr (by positivity)

/-- A word with a clear sign bit, exponent field `E` strictly between `0` and `255` and fraction field `T`
    denotes the real `(2^23 + T) · 2^(E - 150)`. -/
private theorem ieee_f32_normal (b : BitVec 32) (ex fr : Nat)
    (hs : b.extractLsb' 31 1 = 0#1)
    (hex : (b.extractLsb' 23 8).toNat = ex) (hfr : (b.extractLsb' 0 23).toNat = fr)
    (h0 : ex ≠ 0) (h255 : ex ≠ 255) :
    Ideal.ieee 8 23 b = ((((2 ^ 23 + fr : Nat) : ℝ) * (2 : ℝ) ^ ((ex : Int) - 150) : ℝ) : EReal) := by
  unfold Ideal.ieee
  simp only [Nat.reduceAdd, Nat.reducePow, Nat.reduceSub, hs, hex, hfr]
  have hsg : ¬ ((0#1 == 1#1) = true) := by decide
  rw [if_neg h255, if_neg h0, if_neg hsg, one_mul]
  congr 3
  norm_num
  ring
/-- The sign bit of every threshold word is clear and no exponent field is all ones. -/
private theorem thrW_fields (s : Fin 32) :
    (thrW s).extractLsb' 31 1 = 0#1 ∧ ((thrW s).extractLsb' 23 8).toNat ≠ 255 := by
  revert s; decide

/-- Every threshold is nonnegative: its word's sign bit is clear and its exponent is not all ones. -/
theorem thr_nonneg (s : Fin 32) : 0 ≤ thr s :=
  ieee_f32_nonneg (thrW s) (thrW_fields s).1 (thrW_fields s).2

/-- `0x3F000000` is one half. -/
theorem ofBits_half : Ideal.ofBits .f32 0x3F000000#32 = ((1 / 2 : ℝ) : EReal) := by
  show Ideal.ieee 8 23 0x3F000000#32 = _
  rw [ieee_f32_normal 0x3F000000#32 126 0 (by decide) (by decide) (by decide) (by decide) (by decide)]
  norm_num

/-- `0x40000000` is two. -/
theorem ofBits_two : Ideal.ofBits .f32 0x40000000#32 = ((2 : ℝ) : EReal) := by
  show Ideal.ieee 8 23 0x40000000#32 = _
  rw [ieee_f32_normal 0x40000000#32 128 0 (by decide) (by decide) (by decide) (by decide) (by decide)]
  norm_num

/-- `0x43800000` is 256, the number of points. -/
theorem ofBits_256 : Ideal.ofBits .f32 0x43800000#32 = ((256 : ℝ) : EReal) := by
  show Ideal.ieee 8 23 0x43800000#32 = _
  rw [ieee_f32_normal 0x43800000#32 135 0 (by decide) (by decide) (by decide) (by decide) (by decide)]
  norm_num

/-- `0x43C00000` is 384, one and a half times the number of points. -/
theorem ofBits_384 : Ideal.ofBits .f32 0x43C00000#32 = ((384 : ℝ) : EReal) := by
  show Ideal.ieee 8 23 0x43C00000#32 = _
  rw [ieee_f32_normal 0x43C00000#32 135 4194304 (by decide) (by decide) (by decide) (by decide) (by decide)]
  norm_num

end Cert.Rips

end
-- ==== Proof.Spec.lean ====
/-
  What both programs compute, as functions on the extended reals.

  A batch entry is a cloud of 256 points of three coordinates. Its DISTANCE MATRIX is the square root of the
  squared distance clipped below at zero; the squared distance is written in two ways, as the sum of the three
  squared coordinate differences (`sqDiff`) and as `|p|² + |q|² − 2 p·q` (`sqGram`), which agree on real
  points. The EULER CHARACTERISTIC CURVE at threshold `t` is the number of points minus the number of edges
  (unordered pairs of distinct points) of length at most `t`. It is written in two ways: directly, counting
  the strictly upper pairs (`eccR`), and through the count over the FULL square of ordered pairs (`eccK`):
  a symmetric matrix with zero diagonal and a nonnegative threshold counts every point once and every edge
  twice, so `3/2 · 256 − 1/2 · full = 256 − edges`. A two-layer perceptron (`head`) maps the curve's
  thirty-two values to sixty-four outputs.
-/
import proofs.«403404_j10728828306120_3_alg».proof.Proof.Thresholds

noncomputable section

namespace Cert.Rips

open Idealize.ShloMosaic

/-- A distance from a squared distance: clip below at zero, take the root. -/
def distOf (z : EReal) : EReal := Ideal.sqrt (max z 0)

/-- The squared distance as three squared coordinate differences, accumulated from zero. -/
def sqDiff (p q : Fin 3 → EReal) : EReal :=
  0 + (p 0 - q 0) * (p 0 - q 0) + (p 1 - q 1) * (p 1 - q 1) + (p 2 - q 2) * (p 2 - q 2)

/-- The squared distance as `|p|² + |q|² − 2 p·q`, each squared norm a sum from zero. -/
def sqGram (p q : Fin 3 → EReal) : EReal :=
  (0 + ∑ d : Fin 3, p d * p d) + (0 + ∑ d : Fin 3, q d * q d) - ((2 : ℝ) : EReal) * ∑ d : Fin 3, p d * q d

/-- The number of ORDERED pairs within `t`, as a sum of indicators over the full square, rows outermost. -/
def cntFull (D : Fin 256 → Fin 256 → EReal) (t : EReal) : EReal :=
  ∑ i : Fin 256, ∑ j : Fin 256, (if D i j ≤ t then (1 : EReal) else 0)

/-- The number of EDGES within `t`: strictly upper pairs. -/
def nEdges (D : Fin 256 → Fin 256 → EReal) (t : EReal) : ℕ :=
  (Finset.univ.filter fun p : Fin 256 × Fin 256 => p.1 < p.2 ∧ D p.1 p.2 ≤ t).card

/-- The curve through the full count: `384 − 1/2 · full`. -/
def eccK (D : Fin 256 → Fin 256 → EReal) (s : Fin 32) : EReal :=
  ((384 : ℝ) : EReal) - ((1 / 2 : ℝ) : EReal) * cntFull D (thr s)

/-- The curve directly: `256 − edges`. -/
def eccR (D : Fin 256 → Fin 256 → EReal) (s : Fin 32) : EReal :=
  ((256 : ℝ) : EReal) - (((nEdges D (thr s) : ℕ) : ℝ) : EReal)

/-- The perceptron on one curve: `relu (e · W₁ + b₁) · W₂ + b₂` at output `o`. -/
def head (e : Fin 32 → EReal) (w1 : Fin 32 → Fin 128 → EReal) (b1 : Fin 128 → EReal)
    (w2 : Fin 128 → Fin 64 → EReal) (b2 : Fin 64 → EReal) (o : Fin 64) : EReal :=
  (∑ n : Fin 128, max ((∑ s : Fin 32, e s * w1 s n) + b1 n) 0 * w2 n o) + b2 o

end Cert.Rips

end
-- ==== Proof.Counting.lean ====
/-
  The two identities that join the programs.

  (1) On real points the two spellings of the squared distance agree: `Σ (p_d − q_d)² = |p|² + |q|² − 2 p·q`.
  (2) For a symmetric matrix with zero diagonal and a nonnegative threshold, the count over the full square
      is the number of points plus twice the number of strictly upper pairs, so the two spellings of the
      Euler characteristic curve agree.

  For (2) the full square is cut into its diagonal, its strictly upper and its strictly lower part. Every
  diagonal pair is counted, because a zero distance lies under a nonnegative threshold: that is the number of
  points. Swapping the two coordinates carries the counted strictly lower pairs onto the counted strictly
  upper pairs, because the matrix is symmetric: each part has as many elements as there are edges. An
  indicator sum over the square is the cardinality of the counted pairs, and the rest is arithmetic in the
  reals: `384 − 1/2 · (256 + 2 n) = 256 − n`.
-/
import proofs.«403404_j10728828306120_3_alg».proof.Proof.Spec

noncomputable section

namespace Cert.Rips

open Idealize.ShloMosaic

/-- The squared distance of real points, as one real number. -/
private theorem sqDiff_coe (p q : Fin 3 → ℝ) :
    sqDiff (fun d => ((p d : ℝ) : EReal)) (fun d => ((q d : ℝ) : EReal))
      = (((p 0 - q 0) * (p 0 - q 0) + (p 1 - q 1) * (p 1 - q 1) + (p 2 - q 2) * (p 2 - q 2) : ℝ) : EReal) := by
  unfold sqDiff
  rw [zero_add]
  norm_cast

/-- The squared distance of real points, either way. -/
theorem sqDiff_eq_sqGram (p q : Fin 3 → ℝ) :
    sqDiff (fun d => ((p d : ℝ) : EReal)) (fun d => ((q d : ℝ) : EReal))
      = sqGram (fun d => ((p d : ℝ) : EReal)) (fun d => ((q d : ℝ) : EReal)) := by
  rw [sqDiff_coe]
  unfold sqGram
  simp only [Fin.sum_univ_three, zero_add]
  norm_cast
  ring

/-- The squared distance of real points is symmetric. -/
theorem sqDiff_symm (p q : Fin 3 → ℝ) :
    sqDiff (fun d => ((p d : ℝ) : EReal)) (fun d => ((q d : ℝ) : EReal))
      = sqDiff (fun d => ((q d : ℝ) : EReal)) (fun d => ((p d : ℝ) : EReal)) := by
  rw [sqDiff_coe, sqDiff_coe]
  congr 1
  ring

/-- A real point is at distance zero from itself. -/
theorem distOf_sqDiff_self (p : Fin 3 → ℝ) :
    distOf (sqDiff (fun d => ((p d : ℝ) : EReal)) (fun d => ((p d : ℝ) : EReal))) = 0 := by
  rw [sqDiff_coe]
  have h : ((p 0 - p 0) * (p 0 - p 0) + (p 1 - p 1) * (p 1 - p 1) + (p 2 - p 2) * (p 2 - p 2) : ℝ) = 0 := by
    ring
  rw [h]
  unfold distOf
  rw [EReal.coe_zero, max_self, ← EReal.coe_zero, Ideal.sqrt_coe, if_neg (lt_irrefl 0), Real.sqrt_zero]

/-- A sum of natural numbers read in the extended reals is the sum read in the extended reals. -/
private theorem sum_coe_nat {ι : Type} (s : Finset ι) (f : ι → ℕ) :
    ∑ i ∈ s, (((f i : ℕ) : ℝ) : EReal) = (((∑ i ∈ s, f i : ℕ) : ℝ) : EReal) := by
  classical
  induction s using Finset.induction_on with
  | empty => simp
  | insert a s ha ih =>
    rw [Finset.sum_insert ha, Finset.sum_insert ha, ih, Nat.cast_add, EReal.coe_add]

/-- The indicator sum over the full square is the number of ordered pairs within the threshold. -/
private theorem cntFull_eq_card (D : Fin 256 → Fin 256 → EReal) (t : EReal) :
    cntFull D t
      = ((((Finset.univ.filter fun p : Fin 256 × Fin 256 => D p.1 p.2 ≤ t).card : ℕ) : ℝ) : EReal) := by
  unfold cntFull
  have h : ∀ i j, (if D i j ≤ t then (1 : EReal) else 0)
      = (((if D i j ≤ t then 1 else 0 : ℕ) : ℝ) : EReal) := by
    intro i j
    split_ifs <;> simp
  simp only [h, sum_coe_nat]
  rw [Finset.card_filter, Fintype.sum_prod_type]

/-- The ordered pairs within a nonnegative threshold: every point once, every edge twice. -/
private theorem card_full (D : Fin 256 → Fin 256 → EReal) (hsym : ∀ i j, D i j = D j i)
    (hdiag : ∀ i, D i i = 0) (t : EReal) (ht : 0 ≤ t) :
    (Finset.univ.filter fun p : Fin 256 × Fin 256 => D p.1 p.2 ≤ t).card = 256 + 2 * nEdges D t := by
  classical
  set S := Finset.univ.filter fun p : Fin 256 × Fin 256 => D p.1 p.2 ≤ t with hS
  have h1 := Finset.card_filter_add_card_filter_not (s := S)
    (fun p : Fin 256 × Fin 256 => p.1 = p.2)
  have h2 := Finset.card_filter_add_card_filter_not
    (s := S.filter fun p : Fin 256 × Fin 256 => ¬ p.1 = p.2) (fun p : Fin 256 × Fin 256 => p.1 < p.2)
  have hA : (S.filter fun p : Fin 256 × Fin 256 => p.1 = p.2).card = 256 := by
    have hd : (S.filter fun p : Fin 256 × Fin 256 => p.1 = p.2) = (Finset.univ : Finset (Fin 256)).diag := by
      ext ⟨i, j⟩
      simp only [hS, Finset.mem_filter, Finset.mem_univ, true_and, Finset.mem_diag]
      constructor
      · rintro ⟨_, h⟩
        exact h
      · intro h
        subst h
        exact ⟨by rw [hdiag]; exact ht, rfl⟩
    rw [hd, Finset.diag_card, Finset.card_univ, Fintype.card_fin]
  have hU : ((S.filter fun p : Fin 256 × Fin 256 => ¬ p.1 = p.2).filter
      fun p : Fin 256 × Fin 256 => p.1 < p.2).card = nEdges D t := by
    unfold nEdges
    congr 1
    ext ⟨i, j⟩
    simp only [hS, Finset.mem_filter, Finset.mem_univ, true_and]
    constructor
    · rintro ⟨⟨h, _⟩, hlt⟩
      exact ⟨hlt, h⟩
    · rintro ⟨hlt, h⟩
      exact ⟨⟨h, ne_of_lt hlt⟩, hlt⟩
  have hL : ((S.filter fun p : Fin 256 × Fin 256 => ¬ p.1 = p.2).filter
      fun p : Fin 256 × Fin 256 => ¬ p.1 < p.2).card = nEdges D t := by
    unfold nEdges
    apply Finset.card_equiv (Equiv.prodComm _ _)
    rintro ⟨i, j⟩
    simp only [hS, Finset.mem_filter, Finset.mem_univ, true_and, Equiv.prodComm_apply, Prod.swap_prod_mk]
    constructor
    · rintro ⟨⟨h, hne⟩, hnlt⟩
      exact ⟨lt_of_le_of_ne (not_lt.mp hnlt) (Ne.symm hne), by rw [hsym]; exact h⟩
    · rintro ⟨hlt, h⟩
      exact ⟨⟨by rw [hsym]; exact h, (ne_of_lt hlt).symm⟩, not_lt.mpr hlt.le⟩
  omega

/-- The curve, either way, of a symmetric matrix with zero diagonal. -/
theorem ecc_eq (D : Fin 256 → Fin 256 → EReal) (hsym : ∀ i j, D i j = D j i) (hdiag : ∀ i, D i i = 0)
    (s : Fin 32) : eccK D s = eccR D s := by
  unfold eccK eccR
  rw [cntFull_eq_card, card_full D hsym hdiag (thr s) (thr_nonneg s)]
  rw [← EReal.coe_mul, ← EReal.coe_sub, ← EReal.coe_sub]
  congr 1
  push_cast
  ring

end Cert.Rips

end
-- ==== Proof.Finite.lean ====
/-
  From the precondition to real coordinates.

  The precondition is the conjunction of five tests, one per argument array, each "every entry's absolute
  value is below plus infinity". Only the first, on the clouds, is needed: an extended real whose absolute
  value is below plus infinity is a real number. (The two spellings of the squared distance agree on real
  points only: `x − x` is not zero at an infinity. The weights may be anything, both programs treat them alike.)

  The conjunction being 1 makes each conjunct 1; the first conjunct is a fold by `and` over every coordinate of
  the clouds, so each coordinate's test is 1, which says `max x (−x) < ⊤` (the pattern `0x7F800000` denotes `⊤`:
  exponent all ones, fraction zero, sign clear). At `x = ⊥` and at `x = ⊤` that maximum is `⊤`, so `x` is a real.
-/
import proofs.«403404_j10728828306120_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Rips

open Idealize.ShloMosaic Cert.Pre_finite_inputs

/-- The single-precision pattern with exponent all ones, fraction zero and sign clear denotes plus infinity. -/
private theorem ofBits_posInf : Ideal.ofBits .f32 0x7F800000#32 = (⊤ : EReal) := by
  simp [Ideal.ofBits, Ideal.ieee]

/-- Under the precondition every coordinate of every point is a real number. -/
theorem clouds_real (X : FVec Ideal S32x256x3 .f32) (W1 : FVec Ideal S32x128 .f32) (B1 : FVec Ideal S128 .f32)
    (W2 : FVec Ideal S128x64 .f32) (B2 : FVec Ideal S64 .f32)
    (h : Cert.Pre_finite_inputs.fn (F := Ideal) X W1 B1 W2 B2 = fun _ => 1#1) :
    ∀ i : S32x256x3.Idx, ∃ r : ℝ, X i = ((r : ℝ) : EReal) := by
  intro i
  -- the conjunction of the five tests, at the result's one index
  have h0 := congrFun h ValueIdx.ix0
  dsimp only [Cert.Pre_finite_inputs.fn, Cert.Pre_finite_inputs.fn_part1] at h0
  -- the first conjunct: the test on the clouds
  have h1 := (IntOp.andi_eq_one.1 h0).1
  have h2 := (IntOp.andi_eq_one.1 h1).1
  have h3 := (IntOp.andi_eq_one.1 h2).1
  have h4 := (IntOp.andi_eq_one.1 h3).1
  -- a fold by `and` that is 1 met a 1 at every coordinate
  haveI : Subsingleton (S_.Idx) := ⟨fun a b => funext fun d => d.elim0⟩
  have h5 := Host.reduce_andi_all _ _ _ _ _ h4 i
  -- the test at `i`: the absolute value of `X i` is below plus infinity
  have h6 : Ideal.cmp .olt (max (X i) (-(X i))) (Ideal.ofBits .f32 0x7F800000#32) = 1#1 := h5
  rw [ofBits_posInf] at h6
  have h7 : max (X i) (-(X i)) < (⊤ : EReal) := by
    by_contra hn
    simp [Ideal.cmp, hn] at h6
  -- at either infinity the absolute value is plus infinity
  induction hx : X i using EReal.rec with
  | bot => rw [hx] at h7; simp at h7
  | coe r => exact ⟨r, rfl⟩
  | top => rw [hx] at h7; simp at h7

end Cert.Rips

end
-- ==== Proof.KDist.lean ====
/-
  The kernel's distance tensor, entry by entry.

  From one block of sixteen clouds laid out coordinate-major (`[16, 3, 256]`: cloud, coordinate, point) the
  body forms, for each coordinate, the row of that coordinate laid along the rows and along the columns of a
  `256 × 256` square, subtracts, squares, and accumulates the three squares from a zero splat; it then clips
  at zero and takes the root. Entry `(r, i, j)` is therefore the distance, in the sense of `distOf` and
  `sqDiff`, between points `i` and `j` of cloud `r`.

  The proof reads each layout operation at an index. Coordinate `k` of the block, cut out and flattened to
  `[16, 256]`, reads `(r, k, i)` at `(r, i)`; that array given a trailing unit axis and spread over the square
  reads `(r, i)` at `(r, i, j)`, and given a middle unit axis and spread reads `(r, j)`. The arithmetic is
  pointwise, so the entry is the root of the clipped sum of the three squared differences, accumulated from
  the zero word, which is the extended real zero.
-/
import proofs.«403404_j10728828306120_3_alg».proof.Proof.Gen.KernelIdeal.Skeleton
import proofs.«403404_j10728828306120_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.Rips

/-- Point `i` of cloud `r` of a coordinate-major block: its three coordinates. -/
def pt (v0 : Vec Ideal S16x3x256 .f32) (r : Fin 16) (i : Fin 256) : Fin 3 → EReal := fun d => v0 (ix3 r d i)

section Reads
variable {α : Type}

/-- A `[16, 256]` array given a trailing unit axis and spread over the square: entry `(r, i, j)` reads `(r, i)`. -/
private theorem col_apply (w : S16x256.Idx → α) (h1 : S16x256.ShapeCasts S16x256x1)
    (h2 : S16x256x1.Broadcasts S16x256x256) (r : Fin 16) (i j : Fin 256) :
    broadcastTo S16x256x256 (shapeCast S16x256x1 w h1) h2 (ix3 r i j) = w (ix2 r i) := by
  refine (broadcastTo_apply _ h2 (ix3 r i j) (ix3 r i (0 : Fin 1)) fun ax => ?_).trans ?_
  · match ax with
    | ⟨0, _⟩ => rfl
    | ⟨1, _⟩ => rfl
    | ⟨2, _⟩ => rfl
  · refine shapeCast_apply w h1 _ (ix2 r i) ?_
    rw [Shape.rowMajor_val_three, Shape.rowMajor_val_two]
    show r.val * 256 + i.val = (r.val * 256 + i.val) * 1 + 0
    omega

/-- A `[16, 256]` array given a middle unit axis and spread over the square: entry `(r, i, j)` reads `(r, j)`. -/
private theorem row_apply (w : S16x256.Idx → α) (h1 : S16x256.ShapeCasts S16x1x256)
    (h2 : S16x1x256.Broadcasts S16x256x256) (r : Fin 16) (i j : Fin 256) :
    broadcastTo S16x256x256 (shapeCast S16x1x256 w h1) h2 (ix3 r i j) = w (ix2 r j) := by
  refine (broadcastTo_apply _ h2 (ix3 r i j) (ix3 r (0 : Fin 1) j) fun ax => ?_).trans ?_
  · match ax with
    | ⟨0, _⟩ => rfl
    | ⟨1, _⟩ => rfl
    | ⟨2, _⟩ => rfl
  · refine shapeCast_apply w h1 _ (ix2 r j) ?_
    rw [Shape.rowMajor_val_three, Shape.rowMajor_val_two]
    show r.val * 256 + j.val = (r.val * 1 + 0) * 256 + j.val
    omega

/-- Coordinate `o` of a coordinate-major block, cut out and flattened to `[16, 256]`: entry `(r, i)` reads
    `(r, o, i)`. -/
private theorem coord_apply (o : Nat) (ho : o < 3) (v : S16x3x256.Idx → α)
    (h1 : S16x3x256.Slices ![0, o, 0] S16x1x256) (h2 : S16x1x256.ShapeCasts S16x256) (r : Fin 16) (i : Fin 256) :
    shapeCast S16x256 (extractStridedSlice S16x1x256 ![0, o, 0] v h1) h2 (ix2 r i)
      = v (ix3 r (⟨o, ho⟩ : Fin 3) i) := by
  refine (shapeCast_apply _ h2 (ix2 r i) (ix3 r (0 : Fin 1) i) ?_).trans ?_
  · rw [Shape.rowMajor_val_three, Shape.rowMajor_val_two]
    show (r.val * 1 + 0) * 256 + i.val = r.val * 256 + i.val
    omega
  · exact slice3_axis1_apply o v h1 r (0 : Fin 1) i ⟨o, ho⟩ rfl

/-- A root read at an index is the root of the entry. -/
private theorem sqrt_apply {s : Shape} {φ : FTy} (x : FVec Ideal s φ) (i : s.Idx) :
    sqrt x i = Ideal.sqrt (x i) := rfl

end Reads

/-- Entry `(r, i, j)` of the distance tensor is the distance between points `i` and `j` of cloud `r`. -/
theorem pay2_apply (v0 : Vec Ideal S16x3x256 .f32) (r : Fin 16) (i j : Fin 256) :
    k0_pay2 (F := Ideal) v0 (ix3 r i j) = distOf (sqDiff (pt v0 r i) (pt v0 r j)) := by
  unfold k0_pay2
  -- every operation read at `(r, i, j)`: the six spread arrays land on the block's entries
  simp only [sqrt_apply, maximumf_apply, addf_apply, mulf_apply, subf_apply, broadcast_apply, col_apply, row_apply,
    shapeCast_self, coord_apply 0 (by decide), coord_apply 1 (by decide), coord_apply 2 (by decide)]
  -- the zero word is zero; what remains is `distOf (sqDiff …)` unfolded
  rw [show (FloatOps.ofBits (F := Ideal) FTy.f32 0#32 : EReal) = 0 from Ideal.ofBits_zero_f32]
  rfl

end Cert.KernelIdeal.Block

end
-- ==== Proof.KCount.lean ====
/-
  The kernel's thirty-two threshold passes, stacked.

  Each pass compares the whole distance tensor with one threshold, turns the comparison's bits into the
  numbers 0 and 1, and sums them over the columns and then over the rows of each cloud's square: the number
  of ordered pairs within the threshold, `cntFull`. The passes' sixteen-vectors are laid side by side as the
  columns of a `[16, 32]` array, so entry `(r, s)` of that array is cloud `r`'s full count at threshold `s`.
  Nothing here depends on what the distance tensor holds.

  Every pass is one function of the distance tensor and a threshold word; read at a cloud it is the double sum,
  over rows and columns, of the comparison's bit as a number, and a bit widened to a word and read signed is 0 or 1.
  The array is the concatenation, along its second axis, of thirty-two one-column pieces, piece `s` being pass `s`
  of the threshold table, so its entry `(r, s)` is piece `s` at `(r, 0)`.
-/
import proofs.«403404_j10728828306120_3_alg».proof.Proof.Gen.KernelIdeal.Skeleton
import proofs.«403404_j10728828306120_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.Rips

/-- The thirty-two passes over one block, laid side by side: what the body hands to its perceptron. -/
def stacked (v0 : Vec Ideal S16x3x256 .f32) : FVec Ideal S16x32 .f32 :=
  k0_pay35 (k0_pay2 v0) (k0_pay3 v0) (k0_pay4 v0) (k0_pay6 (F := Ideal) (k0_pay5 v0)) (k0_pay7 (k0_pay2 v0)) (k0_pay8 (k0_pay2 v0)) (k0_pay9 (k0_pay2 v0)) (k0_pay10 (k0_pay2 v0)) (k0_pay11 (k0_pay2 v0)) (k0_pay12 (k0_pay2 v0)) (k0_pay13 (k0_pay2 v0)) (k0_pay14 (k0_pay2 v0)) (k0_pay15 (k0_pay2 v0)) (k0_pay16 (k0_pay2 v0)) (k0_pay17 (k0_pay2 v0)) (k0_pay18 (k0_pay2 v0)) (k0_pay20 (k0_pay19 (k0_pay2 v0))) (k0_pay21 (k0_pay2 v0)) (k0_pay22 (k0_pay2 v0)) (k0_pay23 (k0_pay2 v0)) (k0_pay24 (k0_pay2 v0)) (k0_pay25 (k0_pay2 v0)) (k0_pay26 (k0_pay2 v0)) (k0_pay28 (F := Ideal) (k0_pay27 (k0_pay2 v0))) (k0_pay29 (k0_pay2 v0)) (k0_pay30 (k0_pay2 v0)) (k0_pay31 (k0_pay2 v0)) (k0_pay32 (k0_pay2 v0)) (k0_pay33 (k0_pay2 v0)) (k0_pay34 (k0_pay2 v0))

/-- One threshold pass over the distance tensor: compare with the word's value, read the bit as a number, sum over
    the columns and then over the rows of each cloud's square. -/
private def pass (w : BitVec 32) (D : FVec Ideal S16x256x256 .f32) : FVec Ideal S16 .f32 :=
  multiReduction .add [1] S16
    (multiReduction .add [2] S16x256
      (sitofp .f32 (extui 32 (cmpf .ole D (broadcast S16x256x256 (Scalar.ofBits .f32 w))) natLt_1_32))
      0x00000000#32 reduces_S16x256x256_S16x256 (.inl rfl) rfl)
    0x00000000#32 reduces_S16x256_S16 (.inl rfl) rfl

/-- A truth value as a bit, widened to a word and read signed, is the number 1 or 0. -/
private theorem bit_toReal (b : Bool) :
    ((((BitVec.ofBool b).setWidth 32).toInt : ℝ) : EReal) = if b = true then 1 else 0 := by
  cases b
  · have h : ((BitVec.ofBool false).setWidth 32).toInt = 0 := by decide
    rw [h]; simp
  · have h : ((BitVec.ofBool true).setWidth 32).toInt = 1 := by decide
    rw [h]; simp

/-- A pass at cloud `r` is the double sum of indicators over the cloud's square, rows outermost. -/
private theorem pass_apply (w : BitVec 32) (D : FVec Ideal S16x256x256 .f32) (r : Fin 16) :
    pass w D (ix1 r)
      = ∑ i : Fin 256, ∑ j : Fin 256, (if D (ix3 r i j) ≤ Ideal.ofBits .f32 w then (1 : EReal) else 0) := by
  unfold pass
  refine (Ideal.multiReduction_add_single _ _ reduces_S16x256_S16 _ _ (ix1 r)).trans ?_
  refine Finset.sum_congr rfl fun i _ => ?_
  have hi : reduces_S16x256_S16.lift (ix1 r) i = ix2 r i := by
    funext a; match a with | ⟨0, _⟩ => rfl | ⟨1, _⟩ => rfl
  rw [hi]
  refine (Ideal.multiReduction_add_single _ _ reduces_S16x256x256_S16x256 _ _ (ix2 r i)).trans ?_
  refine Finset.sum_congr rfl fun j _ => ?_
  have hj : reduces_S16x256x256_S16x256.lift (ix2 r i) j = ix3 r i j := by
    funext a; match a with | ⟨0, _⟩ => rfl | ⟨1, _⟩ => rfl | ⟨2, _⟩ => rfl
  rw [hj]
  show ((((BitVec.ofBool (decide (D (ix3 r i j) ≤ Ideal.ofBits .f32 w))).setWidth 32).toInt : ℝ) : EReal) = _
  rw [bit_toReal]
  simp only [decide_eq_true_eq]

/-- Column `n` of the array: pass `n` of the threshold table, as a `[16, 1]` piece. -/
private def column (D : FVec Ideal S16x256x256 .f32) (n : Fin 32) : FVec Ideal S16x1 .f32 :=
  shapeCast S16x1 (pass (thrW n) D) shapeCasts_S16_S16x1

/-- A column at `(r, 0)` is its pass at `r`: both sit at row-major position `r`. -/
private theorem column_apply (D : FVec Ideal S16x256x256 .f32) (n : Fin 32) (r : Fin 16) (u : Fin 1) :
    column D n (ix2 r u) = pass (thrW n) D (ix1 r) :=
  shapeCast_apply _ shapeCasts_S16_S16x1 (ix2 r u) (ix1 r) (by
    have hu : u.val = 0 := by omega
    rw [Shape.rowMajor_val_two, Shape.rowMajor_val_one]
    show r.val = r.val * 1 + u.val
    rw [hu, Nat.mul_one, Nat.add_zero])

/-- The stacked passes are the concatenation of the thirty-two columns, in the threshold table's order: the body's
    thirty-two passes carry the table's thirty-two words, one after the other. -/
private theorem stacked_eq_columns (v0 : Vec Ideal S16x3x256 .f32) :
    stacked v0 = concatenate S16x32 1
      (List.ofFn fun n : Fin 32 => (⟨S16x1, column (k0_pay2 v0) n⟩ : (s : Shape) × (s.Idx → Ideal .f32)))
      concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x32_d1 :=
  rfl

/-- Entry `(r, s)` of the stacked passes is cloud `r`'s count of ordered pairs within threshold `s`. -/
theorem stacked_apply (v0 : Vec Ideal S16x3x256 .f32) (r : Fin 16) (s : Fin 32) :
    stacked v0 (ix2 r s) = cntFull (fun i j => k0_pay2 (F := Ideal) v0 (ix3 r i j)) (thr s) := by
  rw [stacked_eq_columns]
  refine (concatenate_ofFn_unit_apply (t := S16x32) (s₁ := S16x1) (1 : Fin 2) (column (k0_pay2 v0)) _ rfl rfl
    (ix2 r s) s rfl (ix2 r (0 : Fin 1)) ?_).trans ?_
  · intro b hb
    match b with
    | ⟨0, _⟩ => rfl
    | ⟨1, _⟩ => exact absurd rfl hb
  · rw [column_apply, pass_apply]
    rfl

end Cert.KernelIdeal.Block

end
-- ==== Proof.KHead.lean ====
/-
  The kernel's perceptron, entry by entry.

  From a `[16, 32]` array of full counts the body forms `384 − 1/2 · count`, multiplies by the first weight
  matrix into a zero accumulator, adds the first bias laid along the rows, clips at zero, multiplies by the
  second weight matrix into a zero accumulator and adds the second bias: `head` of the curve
  `s ↦ 384 − 1/2 · count (r, s)`, at each row `r` and output `o`.

  Each matrix product into the zero accumulator is, at `(r, c)`, the sum over the one contracted coordinate `k`
  of the left operand at `(r, k)` times the right operand at `(k, c)`: the contraction's index set is the range
  of that coordinate, and the two operand indices are read coordinate by coordinate. A bias cast to one row and
  laid over sixteen reads, at `(r, c)`, its entry `c`. With these the body's entry and `head` are the same
  expression once the three literals are read as `1/2`, `384` and `0`.
-/
import proofs.«403404_j10728828306120_3_alg».proof.Proof.Gen.KernelIdeal.Skeleton
import proofs.«403404_j10728828306120_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Idealize.ShloMosaic Idealize.ShloMosaic.ValueIdx Cert.KernelIdeal Cert.KernelIdeal.Gen Cert.Rips

/-- The dimension numbers of the `[16, 32] × [32, 128]` product … -/
private abbrev D₁ := dot_S16x32_S32x128_S16x128_1_0_0_1_n_n
/-- … and of the `[16, 128] × [128, 64]` one. -/
private abbrev D₂ := dot_S16x128_S128x64_S16x64_1_0_0_1_n_n

/-! ## The first product's operand indices, coordinate by coordinate -/

private theorem lhs₁_0 (j : S16x128.Idx) (k : D₁.contr.Idx) : (D₁.lhsIdx j k 0 : ℕ) = j 0 := by
  simp [DotDims.lhsIdx, D₁, dot_S16x32_S32x128_S16x128_1_0_0_1_n_n]; rfl
private theorem lhs₁_1 (j : S16x128.Idx) (k : D₁.contr.Idx) : (D₁.lhsIdx j k 1 : ℕ) = k ⟨0, by decide⟩ := by
  simp [DotDims.lhsIdx, D₁, dot_S16x32_S32x128_S16x128_1_0_0_1_n_n]; rfl
private theorem rhs₁_0 (j : S16x128.Idx) (k : D₁.contr.Idx) : (D₁.rhsIdx j k 0 : ℕ) = k ⟨0, by decide⟩ := by
  simp [DotDims.rhsIdx, D₁, dot_S16x32_S32x128_S16x128_1_0_0_1_n_n]; rfl
private theorem rhs₁_1 (j : S16x128.Idx) (k : D₁.contr.Idx) : (D₁.rhsIdx j k 1 : ℕ) = j 1 := by
  simp [DotDims.rhsIdx, D₁, dot_S16x32_S32x128_S16x128_1_0_0_1_n_n]; rfl

/-- The first product into the zero accumulator, at `(r, n)`: the sum over `s` of `L (r, s) · R (s, n)`. -/
private theorem matmul₁_apply (prec : Option ContractPrecision) (L : FVec Ideal S16x32 .f32) (R : FVec Ideal S32x128 .f32)
    (r : Fin 16) (n : Fin 128) :
    matmul D₁ prec L R (constant S16x128 .f32 0x00000000#32) (ix2 r n) = ∑ s : Fin 32, L (ix2 r s) * R (ix2 s n) := by
  refine (Ideal.matmul_constant_zero_apply D₁ prec L R (ix2 r n)).trans ?_
  rw [← Equiv.sum_comp (contrEquiv1 D₁ 32 rfl rfl).symm]
  refine Finset.sum_congr rfl fun c _ => ?_
  have c2 := contrEquiv1_symm_val D₁ 32 rfl rfl c
  have hl : D₁.lhsIdx (ix2 r n) ((contrEquiv1 D₁ 32 rfl rfl).symm c) = ix2 r c := by
    funext ax; apply Fin.ext
    match ax with
    | ⟨0, _⟩ => exact lhs₁_0 _ _
    | ⟨1, _⟩ => exact (lhs₁_1 _ _).trans c2
  have hr : D₁.rhsIdx (ix2 r n) ((contrEquiv1 D₁ 32 rfl rfl).symm c) = ix2 c n := by
    funext ax; apply Fin.ext
    match ax with
    | ⟨0, _⟩ => exact (rhs₁_0 _ _).trans c2
    | ⟨1, _⟩ => exact rhs₁_1 _ _
  rw [hl, hr]

/-! ## The second product's operand indices, coordinate by coordinate -/

private theorem lhs₂_0 (j : S16x64.Idx) (k : D₂.contr.Idx) : (D₂.lhsIdx j k 0 : ℕ) = j 0 := by
  simp [DotDims.lhsIdx, D₂, dot_S16x128_S128x64_S16x64_1_0_0_1_n_n]; rfl
private theorem lhs₂_1 (j : S16x64.Idx) (k : D₂.contr.Idx) : (D₂.lhsIdx j k 1 : ℕ) = k ⟨0, by decide⟩ := by
  simp [DotDims.lhsIdx, D₂, dot_S16x128_S128x64_S16x64_1_0_0_1_n_n]; rfl
private theorem rhs₂_0 (j : S16x64.Idx) (k : D₂.contr.Idx) : (D₂.rhsIdx j k 0 : ℕ) = k ⟨0, by decide⟩ := by
  simp [DotDims.rhsIdx, D₂, dot_S16x128_S128x64_S16x64_1_0_0_1_n_n]; rfl
private theorem rhs₂_1 (j : S16x64.Idx) (k : D₂.contr.Idx) : (D₂.rhsIdx j k 1 : ℕ) = j 1 := by
  simp [DotDims.rhsIdx, D₂, dot_S16x128_S128x64_S16x64_1_0_0_1_n_n]; rfl

/-- The second product into the zero accumulator, at `(r, o)`: the sum over `n` of `L (r, n) · R (n, o)`. -/
private theorem matmul₂_apply (prec : Option ContractPrecision) (L : FVec Ideal S16x128 .f32) (R : FVec Ideal S128x64 .f32)
    (r : Fin 16) (o : Fin 64) :
    matmul D₂ prec L R (constant S16x64 .f32 0x00000000#32) (ix2 r o) = ∑ n : Fin 128, L (ix2 r n) * R (ix2 n o) := by
  refine (Ideal.matmul_constant_zero_apply D₂ prec L R (ix2 r o)).trans ?_
  rw [← Equiv.sum_comp (contrEquiv1 D₂ 128 rfl rfl).symm]
  refine Finset.sum_congr rfl fun c _ => ?_
  have c2 := contrEquiv1_symm_val D₂ 128 rfl rfl c
  have hl : D₂.lhsIdx (ix2 r o) ((contrEquiv1 D₂ 128 rfl rfl).symm c) = ix2 r c := by
    funext ax; apply Fin.ext
    match ax with
    | ⟨0, _⟩ => exact lhs₂_0 _ _
    | ⟨1, _⟩ => exact (lhs₂_1 _ _).trans c2
  have hr : D₂.rhsIdx (ix2 r o) ((contrEquiv1 D₂ 128 rfl rfl).symm c) = ix2 c o := by
    funext ax; apply Fin.ext
    match ax with
    | ⟨0, _⟩ => exact (rhs₂_0 _ _).trans c2
    | ⟨1, _⟩ => exact rhs₂_1 _ _
  rw [hl, hr]

/-! ## The biases laid along the rows -/

/-- The first bias, cast to one row and laid over the sixteen rows, reads at `(r, n)` its entry `n`. -/
private theorem bias₁_apply (b : FVec Ideal S128 .f32) (r : Fin 16) (n : Fin 128) :
    broadcastTo S16x128 (shapeCast S1x128 b shapeCasts_S128_S1x128) broadcasts_S1x128_S16x128 (ix2 r n) = b (ix1 n) :=
  (broadcastTo_1b_ab_apply _ broadcasts_S1x128_S16x128 r n).trans (shapeCast_a_1a_apply b shapeCasts_S128_S1x128 0 n)

/-- The second bias likewise reads at `(r, o)` its entry `o`. -/
private theorem bias₂_apply (b : FVec Ideal S64 .f32) (r : Fin 16) (o : Fin 64) :
    broadcastTo S16x64 (shapeCast S1x64 b shapeCasts_S64_S1x64) broadcasts_S1x64_S16x64 (ix2 r o) = b (ix1 o) :=
  (broadcastTo_1b_ab_apply _ broadcasts_S1x64_S16x64 r o).trans (shapeCast_a_1a_apply b shapeCasts_S64_S1x64 0 o)

/-! ## The body's result -/

/-- Entry `(r, o)` of the body's result over a count array `cnt` and the four weight blocks. -/
theorem pay1_apply (cnt : FVec Ideal S16x32 .f32) (w1 : Vec Ideal S32x128 .f32) (b1 : Vec Ideal S128 .f32)
    (w2 : Vec Ideal S128x64 .f32) (b2 : Vec Ideal S64 .f32) (r : Fin 16) (o : Fin 64) :
    k0_pay1 (F := Ideal) cnt w1 b1 w2 b2 (ix2 r o)
      = head (fun s => ((384 : ℝ) : EReal) - ((1 / 2 : ℝ) : EReal) * cnt (ix2 r s))
          (fun s n => w1 (ix2 s n)) (fun n => b1 (ix1 n)) (fun n o' => w2 (ix2 n o')) (fun o' => b2 (ix1 o')) o := by
  unfold k0_pay1
  -- the outer sum, product and bias
  rw [addf_apply, matmul₂_apply, bias₂_apply]
  unfold head
  refine congrArg (· + b2 (ix1 o)) (Finset.sum_congr rfl fun n _ => ?_)
  -- the hidden unit `n`: the clip of the inner product plus its bias
  rw [maximumf_apply, addf_apply, matmul₁_apply, bias₁_apply]
  -- the three literals are `384`, `1/2` and `0`
  show max ((∑ s : Fin 32, (Ideal.ofBits .f32 0x43C00000#32 - Ideal.ofBits .f32 0x3F000000#32 * cnt (ix2 r s)) * w1 (ix2 s n))
        + b1 (ix1 n)) (Ideal.ofBits .f32 0x00000000#32) * w2 (ix2 n o)
      = max ((∑ s : Fin 32, (((384 : ℝ) : EReal) - ((1 / 2 : ℝ) : EReal) * cnt (ix2 r s)) * w1 (ix2 s n)) + b1 (ix1 n)) 0
        * w2 (ix2 n o)
  rw [ofBits_384, ofBits_half, Ideal.ofBits_zero_f32]

end Cert.KernelIdeal.Block

end
-- ==== Proof.KBlock.lean ====
/-
  What one grid point leaves in the output block.

  The body stores once, over the whole `[16, 64]` block: the perceptron of the stacked passes over the
  distance tensor of the block of clouds it loaded. Entry `(r, o)` is `head` of cloud `r`'s curve, written
  through the full count (`eccK`), over the cloud's distance matrix.
-/
import proofs.«403404_j10728828306120_3_alg».proof.Proof.Gen.KernelIdeal.Frame
import proofs.«403404_j10728828306120_3_alg».proof.Proof.KDist
import proofs.«403404_j10728828306120_3_alg».proof.Proof.KCount
import proofs.«403404_j10728828306120_3_alg».proof.Proof.KHead
import Idealize.ShloMosaic.Lib.Pipeline.Value

noncomputable section

namespace Cert.KernelIdeal.Block

open Idealize.ShloMosaic Idealize.ShloMosaic.ValueIdx Cert.KernelIdeal Cert.KernelIdeal.Gen Cert.Rips

/-- The all-zero offsets of the whole-block rectangles, at ranks one, two and three. -/
theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Cloud `r`'s distance matrix in a coordinate-major block. -/
def dmat (x0 : Vec Ideal S16x3x256 .f32) (r : Fin 16) : Fin 256 → Fin 256 → EReal :=
  fun i j => distOf (sqDiff (pt x0 r i) (pt x0 r j))

/-- Entry `(r, o)` of what the body leaves in the output block, from the five input blocks. -/
theorem out_block (x0 : Vec Ideal S16x3x256 .f32) (x1 : Vec Ideal S32x128 .f32) (x2 : Vec Ideal S128 .f32)
    (x3 : Vec Ideal S128x64 .f32) (x4 : Vec Ideal S64 .f32) (r : Fin 16) (o : Fin 64) :
    out0_5 (F := Ideal) x0 x1 x2 x3 x4 (ix2 r o)
      = head (eccK (dmat x0 r)) (fun s n => x1 (ix2 s n)) (fun n => x2 (ix1 n)) (fun n o' => x3 (ix2 n o'))
          (fun o' => x4 (ix1 o')) o := by
  unfold out0_5
  rw [View.canon_unit_zero hz2]
  simp only [View.ld_unit_zero (S := S16x3x256) hz3, View.ld_unit_zero (S := S32x128) hz2,
    View.ld_unit_zero (S := S128) hz1, View.ld_unit_zero (S := S128x64) hz2, View.ld_unit_zero (S := S64) hz1]
  show k0_pay1 (F := Ideal) (stacked x0) x1 x2 x3 x4 (ix2 r o) = _
  rw [pay1_apply]
  have hcurve : (fun s : Fin 32 => ((384 : ℝ) : EReal) - ((1 / 2 : ℝ) : EReal) * stacked x0 (ix2 r s))
      = eccK (dmat x0 r) := by
    funext s
    rw [stacked_apply]
    have hD : (fun i j : Fin 256 => k0_pay2 (F := Ideal) x0 (ix3 r i j)) = dmat x0 r := by
      funext i j
      exact pay2_apply x0 r i j
    rw [hD]
    rfl
  rw [hcurve]

end Cert.KernelIdeal.Block

end
-- ==== Proof.KArray.lean ====
/-
  The kernel's result array as one function of its five arguments.

  The grid has two points; point `t` loads clouds `16 t … 16 t + 15` (a block of the coordinate-major copy of
  the clouds that the program makes first: entry `(b, d, i)` of the copy is entry `(b, i, d)` of the argument)
  and the four weight arrays whole, and writes rows `16 t … 16 t + 15` of the result. So row `b` of the result
  is written by point `b / 16` from cloud `b` alone, the two blocks fill the thirty-two rows, and entry
  `(b, o)` of the result is `head` of cloud `b`'s curve (through the full count) at output `o`.
-/
import proofs.«403404_j10728828306120_3_alg».proof.Proof.Gen.KernelIdeal.Value
import proofs.«403404_j10728828306120_3_alg».proof.Proof.KBlock
import Idealize.ShloMosaic.Lib.Pipeline.Value
import Idealize.ShloMosaic.Lib.ValueLayout
import Idealize.ShloMosaic.Lib.StableHlo.Run

set_option maxRecDepth 16384

noncomputable section

namespace Cert.KernelIdeal.ArrayValue

open Cert.KernelIdeal Cert.KernelIdeal.Gen Cert.KernelIdeal.Value Cert.KernelIdeal.Block Cert.Rips
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Cloud `b`'s distance matrix in the point-major array the program is given. -/
def dmatX (X : S32x256x3.Idx → Elt Ideal .f32) (b : Fin 32) : Fin 256 → Fin 256 → EReal :=
  fun i j => distOf (sqDiff (fun d => X (ix3 b i d)) (fun d => X (ix3 b j d)))

/-- The result array: entry `(b, o)` is `head` of cloud `b`'s curve at output `o`. -/
def G (X : S32x256x3.Idx → Elt Ideal .f32) (W1 : S32x128.Idx → Elt Ideal .f32) (B1 : S128.Idx → Elt Ideal .f32)
    (W2 : S128x64.Idx → Elt Ideal .f32) (B2 : S64.Idx → Elt Ideal .f32) : S32x64.Idx → Elt Ideal .f32 :=
  fun idx => head (eccK (dmatX X (idx 0))) (fun s n => W1 (ix2 s n)) (fun n => B1 (ix1 n)) (fun n o' => W2 (ix2 n o'))
    (fun o' => B2 (ix1 o')) (idx 1)

/-- The coordinate-major copy the program makes before the call: entry `(b, d, i)` is the argument's `(b, i, d)`. -/
theorem copy_apply (c : Dev nD) (b : Fin 32) (d : Fin 3) (i : Fin 256) :
    V m c main_v0 (ix3 b d i) = m ((c : Thread nD τ).loc main_arg0) (ix3 b i d) := by
  have e : (V m c main_v0 : S32x3x256.Idx → Elt Ideal .f32)
      = transpose S32x3x256 [0, 2, 1] (m ((c : Thread nD τ).loc main_arg0)) Facts₀.transposes_S32x256x3_S32x3x256_0_2_1 := by
    dsimp only [Gen.V, Gen.hostOps0]; after_results
  rw [e]
  exact transpose_ix3_021_apply _ _ b d i

/-- The printed index maps over the two grid points: the clouds' window moves with the result's along the batch
    axis, every other block index is zero, and the result's batch block index is at most one. -/
theorem idx_facts : ∀ t : Fin cfg0.N, win0_0.index t (0 : Fin 3) = win0_5.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 1 :=
  (by decide +kernel : ∀ t : Fin grid0.N, _)

/-- Each batch block of the result is some point's. -/
theorem idx_onto : ∀ q0 : Fin 2, ∃ t : Fin cfg0.N, win0_5.index t = ![q0.val, 0] :=
  (by decide +kernel : ∀ q0 : Fin 2, ∃ t : Fin grid0.N, win0_5.index t = ![q0.val, 0])

/-! ## The input blocks read at an index -/

/-- Point `t`'s block of clouds: cloud `r` of the block is cloud `b = 16 · (block index) + r` of the copy. -/
theorem clouds_blk (c : Dev nD) (t : Fin cfg0.N) (r : Fin 16) (d : Fin 3) (i : Fin 256) (b : Fin 32)
    (hb : b.val = win0_5.index t (0 : Fin 2) * 16 + r.val) :
    iblk m c 0 t (ix3 r d i) = V m c main_v0 (ix3 b d i) := by
  obtain ⟨e0, e1, e2, -⟩ := idx_facts t
  show V m c main_v0 (((cfg0.win 0).blk t).view.emb (ix3 r d i)) = V m c main_v0 (ix3 b d i)
  refine congrArg (V m c main_v0) ?_
  funext a; apply Fin.ext
  match a with
  | ⟨0, _⟩ => show win0_0.index t (0 : Fin 3) * 16 + 1 * r.val = b.val; omega
  | ⟨1, _⟩ => show win0_0.index t (1 : Fin 3) * 3 + 1 * d.val = d.val; omega
  | ⟨2, _⟩ => show win0_0.index t (2 : Fin 3) * 256 + 1 * i.val = i.val; omega

/-- The first weight matrix is staged whole at every point. -/
theorem w1_blk (c : Dev nD) (t : Fin cfg0.N) (s : Fin 32) (n : Fin 128) :
    iblk m c 1 t (ix2 s n) = m ((c : Thread nD τ).loc main_arg1) (ix2 s n) := by
  obtain ⟨-, -, -, e3, e4, -⟩ := idx_facts t
  refine Eq.trans ?_ (congrFun (V_main_arg1 m c) (ix2 s n))
  show V m c main_arg1 (((cfg0.win 1).blk t).view.emb (ix2 s n)) = V m c main_arg1 (ix2 s n)
  refine congrArg (V m c main_arg1) ?_
  funext a; apply Fin.ext
  match a with
  | ⟨0, _⟩ => show win0_1.index t (0 : Fin 2) * 32 + 1 * s.val = s.val; omega
  | ⟨1, _⟩ => show win0_1.index t (1 : Fin 2) * 128 + 1 * n.val = n.val; omega

/-- The first bias is staged whole at every point. -/
theorem b1_blk (c : Dev nD) (t : Fin cfg0.N) (n : Fin 128) :
    iblk m c 2 t (ix1 n) = m ((c : Thread nD τ).loc main_arg2) (ix1 n) := by
  obtain ⟨-, -, -, -, -, e5, -⟩ := idx_facts t
  refine Eq.trans ?_ (congrFun (V_main_arg2 m c) (ix1 n))
  show V m c main_arg2 (((cfg0.win 2).blk t).view.emb (ix1 n)) = V m c main_arg2 (ix1 n)
  refine congrArg (V m c main_arg2) ?_
  funext a; apply Fin.ext
  match a with
  | ⟨0, _⟩ => show win0_2.index t (0 : Fin 1) * 128 + 1 * n.val = n.val; omega

/-- The second weight matrix is staged whole at every point. -/
theorem w2_blk (c : Dev nD) (t : Fin cfg0.N) (n : Fin 128) (o : Fin 64) :
    iblk m c 3 t (ix2 n o) = m ((c : Thread nD τ).loc main_arg3) (ix2 n o) := by
  obtain ⟨-, -, -, -, -, -, e6, e7, -⟩ := idx_facts t
  refine Eq.trans ?_ (congrFun (V_main_arg3 m c) (ix2 n o))
  show V m c main_arg3 (((cfg0.win 3).blk t).view.emb (ix2 n o)) = V m c main_arg3 (ix2 n o)
  refine congrArg (V m c main_arg3) ?_
  funext a; apply Fin.ext
  match a with
  | ⟨0, _⟩ => show win0_3.index t (0 : Fin 2) * 128 + 1 * n.val = n.val; omega
  | ⟨1, _⟩ => show win0_3.index t (1 : Fin 2) * 64 + 1 * o.val = o.val; omega

/-- The second bias is staged whole at every point. -/
theorem b2_blk (c : Dev nD) (t : Fin cfg0.N) (o : Fin 64) :
    iblk m c 4 t (ix1 o) = m ((c : Thread nD τ).loc main_arg4) (ix1 o) := by
  obtain ⟨-, -, -, -, -, -, -, -, e8, -⟩ := idx_facts t
  refine Eq.trans ?_ (congrFun (V_main_arg4 m c) (ix1 o))
  show V m c main_arg4 (((cfg0.win 4).blk t).view.emb (ix1 o)) = V m c main_arg4 (ix1 o)
  refine congrArg (V m c main_arg4) ?_
  funext a; apply Fin.ext
  match a with
  | ⟨0, _⟩ => show win0_4.index t (0 : Fin 1) * 64 + 1 * o.val = o.val; omega

/-! ## From blocks to the array -/

/-- The result array of the argument arrays of device `c`. -/
abbrev result (c : Dev nD) : S32x64.Idx → Elt Ideal .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is block `t` of the result array. -/
theorem flushed_eq (c : Dev nD) (t : Fin cfg0.N) :
    (dats m 0 c).flushed 5 t = ((cfg0.win 5).blk t).view.read (Elt Ideal) (result m c) := by
  rw [flushed5]
  obtain ⟨-, -, -, -, -, -, -, -, -, e9, e10⟩ := idx_facts t
  funext y
  obtain ⟨r, o, rfl⟩ : ∃ (r : Fin 16) (o : Fin 64), y = ix2 r o := ⟨y 0, y 1, eq_ix2 y⟩
  have hb : win0_5.index t (0 : Fin 2) * 16 + r.val < 32 := by have := r.isLt; omega
  have hemb : ((cfg0.win 5).blk t).view.emb (ix2 r o)
      = ix2 (⟨win0_5.index t (0 : Fin 2) * 16 + r.val, hb⟩ : Fin 32) o := by
    funext a; apply Fin.ext
    match a with
    | ⟨0, _⟩ => show win0_5.index t (0 : Fin 2) * 16 + 1 * r.val = win0_5.index t (0 : Fin 2) * 16 + r.val; omega
    | ⟨1, _⟩ => show win0_5.index t (1 : Fin 2) * 64 + 1 * o.val = o.val; omega
  show out0_5 (F := Ideal) (iblk m c 0 t) (iblk m c 1 t) (iblk m c 2 t) (iblk m c 3 t) (iblk m c 4 t) (ix2 r o)
      = result m c (((cfg0.win 5).blk t).view.emb (ix2 r o))
  rw [hemb]
  refine (out_block (iblk m c 0 t) (iblk m c 1 t) (iblk m c 2 t) (iblk m c 3 t) (iblk m c 4 t) r o).trans ?_
  have hp : ∀ i : Fin 256, pt (iblk m c 0 t) r i
      = fun d => m ((c : Thread nD τ).loc main_arg0) (ix3 (⟨win0_5.index t (0 : Fin 2) * 16 + r.val, hb⟩ : Fin 32) i d) :=
    fun i => funext fun d => (clouds_blk m c t r d i ⟨_, hb⟩ rfl).trans (copy_apply m c ⟨_, hb⟩ d i)
  have hD : dmat (iblk m c 0 t) r
      = dmatX (m ((c : Thread nD τ).loc main_arg0)) (⟨win0_5.index t (0 : Fin 2) * 16 + r.val, hb⟩ : Fin 32) := by
    funext i j
    unfold dmat dmatX
    rw [hp i, hp j]
  have h1 : (fun (s : Fin 32) (n : Fin 128) => iblk m c 1 t (ix2 s n))
      = fun s n => m ((c : Thread nD τ).loc main_arg1) (ix2 s n) := funext fun s => funext fun n => w1_blk m c t s n
  have h2 : (fun n : Fin 128 => iblk m c 2 t (ix1 n)) = fun n => m ((c : Thread nD τ).loc main_arg2) (ix1 n) :=
    funext fun n => b1_blk m c t n
  have h3 : (fun (n : Fin 128) (o' : Fin 64) => iblk m c 3 t (ix2 n o'))
      = fun n o' => m ((c : Thread nD τ).loc main_arg3) (ix2 n o') := funext fun n => funext fun o' => w2_blk m c t n o'
  have h4 : (fun o' : Fin 64 => iblk m c 4 t (ix1 o')) = fun o' => m ((c : Thread nD τ).loc main_arg4) (ix1 o') :=
    funext fun o' => b2_blk m c t o'
  rw [hD, h1, h2, h3, h4]
  rfl

/-- An index of the result array is in point `t`'s block iff each coordinate is in the block's range. -/
theorem mem_blk (t : Fin cfg0.N) (i : S32x64.Idx) :
    i ∈ ((cfg0.win 5).blk t).view.set ↔ ∀ a : Fin 2, win0_5.index t a * S16x64.size a ≤ (i a).val
      ∧ (i a).val < win0_5.index t a * S16x64.size a + S16x64.size a := by
  show i ∈ ((View.whole main_v1).slice (win0_5.rect t)).set ↔ _
  rw [View.set_slice_whole, Rect.mem_set_unit]
  exact Iff.rfl

/-- The two blocks fill the array: row `b` lies in the block of the point whose batch block index is `b / 16`. -/
theorem cover (i : S32x64.Idx) :
    ∃ t : Fin cfg0.N, (cfg0.win 5).flush t = true ∧ i ∈ ((cfg0.win 5).blk t).view.set := by
  have hi0 : (i 0).val < 32 := (i 0).isLt
  have hi1 : (i 1).val < 64 := (i 1).isLt
  obtain ⟨t, ht⟩ := idx_onto ⟨(i 0).val / 16, by omega⟩
  have q0 : win0_5.index t (0 : Fin 2) = (i 0).val / 16 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 16 ≤ (i 0).val ∧ (i 0).val < win0_5.index t (0 : Fin 2) * 16 + 16; omega
  | ⟨1, _⟩ => show win0_5.index t (1 : Fin 2) * 64 ≤ (i 1).val ∧ (i 1).val < win0_5.index t (1 : Fin 2) * 64 + 64; omega

/-- The result array after the run is `G` of the argument arrays. -/
theorem final (c : Dev nD) : (dats m 0 c).arrAt 5 cfg0.N = result m c :=
  (dats m 0 c).arrAt_eq_of_cover 5 (result m c) (fun t _ => flushed_eq m c t) cover

/-- The run, read: the result buffer at `G` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.RefTerm.lean ====
/-
  The reference's straight line, cut into four stages, each one function of the stage before.

  `dist`: from the clouds `[32, 256, 3]`, the squared norms (a sum over the coordinate axis), laid along the
  rows and along the columns of each cloud's square and added, minus twice the Gram matrix (a batched
  product contracting the coordinate axis), clipped at zero, the root. `triu`: the strictly upper
  triangle of a `256 × 256` square as bits — where row ≥ column the bit is cleared, elsewhere it stays
  set. `curve`: the distances and the thirty-two thresholds laid out over `[32, 256, 256, 32]`, compared,
  masked by the triangle, widened to words, summed over the two point axes, converted to numbers and
  subtracted from 256. `mlp`: two matrix products with a bias each and a clip at zero between them.
  The program's result is their composition, `out`.
-/
import proofs.«403404_j10728828306120_3_alg».proof.Proof.Gen.ReferenceIdeal
import proofs.«403404_j10728828306120_3_alg».proof.Proof.Spec
import Idealize.ShloMosaic.Lib.ValueIdx

noncomputable section

namespace Cert.ReferenceIdeal.Term

open Idealize.ShloMosaic Idealize.ShloMosaic.ValueIdx Cert.ReferenceIdeal Cert.ReferenceIdeal.Facts₀ Cert.Rips

/-- The thresholds as the program's dense constant lists them. -/
def thrVec : FVec Ideal S32 .f32 := fun i => FloatOps.ofBits .f32 (lit0 (S32.rowMajor i))

/-- Operations %0 to %13: the distance tensor. -/
def dist (X : FVec Ideal S32x256x3 .f32) : FVec Ideal S32x256x256 .f32 :=
  have v0 : FVec Ideal S32x256x3 .f32 := mulf X X
  have cst_0 : FVec Ideal S_ .f32 := constant S_ .f32 0x00000000#32
  have v1 : FVec Ideal S32x256 .f32 := Host.reduceAdd v0 cst_0 reducesTo_S32x256x3_S32x256_d2 h_S_
  have v2 : FVec Ideal S32x256x1 .f32 := broadcastInDim S32x256x1 ![0, 1] bcast_S32x256_S32x256x1_0_1 v1
  have v3 : FVec Ideal S32x1x256 .f32 := broadcastInDim S32x1x256 ![0, 2] bcast_S32x256_S32x1x256_0_2 v1
  have v4 : FVec Ideal S32x256x256 .f32 := broadcastInDim S32x256x256 ![0, 1, 2] bcast_S32x256x1_S32x256x256_0_1_2 v2
  have v5 : FVec Ideal S32x256x256 .f32 := broadcastInDim S32x256x256 ![0, 1, 2] bcast_S32x1x256_S32x256x256_0_1_2 v3
  have v6 : FVec Ideal S32x256x256 .f32 := addf v4 v5
  have v7 : FVec Ideal S32x256x256 .f32 := Host.dotGeneral dot_S32x256x3_S32x256x3_S32x256x256_2_2_1_1_0_0 none X X
  have cst_1 : FVec Ideal S_ .f32 := constant S_ .f32 0x40000000#32
  have v8 : FVec Ideal S32x256x256 .f32 := broadcastInDim S32x256x256 ![] bcast_S_S32x256x256 cst_1
  have v9 : FVec Ideal S32x256x256 .f32 := mulf v8 v7
  have v10 : FVec Ideal S32x256x256 .f32 := subf v6 v9
  have cst_2 : FVec Ideal S_ .f32 := constant S_ .f32 0x00000000#32
  have v11 : FVec Ideal S32x256x256 .f32 := broadcastInDim S32x256x256 ![] bcast_S_S32x256x256 cst_2
  have v12 : FVec Ideal S32x256x256 .f32 := maximumf v10 v11
  Host.sqrt v12

/-- Operations %c, %14 and the outlined triangle function: the strictly upper triangle as bits. -/
def triu : IVec S256x256 1 :=
  have c : IVec S_ 1 := constantI S_ 1 1#1
  have v14 : IVec S256x256 1 := broadcastInDim S256x256 ![] bcast_S_S256x256 c
  have t0 : IVec S256x256 32 := iotaInDim S256x256 32 0
  have tc : IVec S_ 32 := constantI S_ 32 0#32
  have t1 : IVec S256x256 32 := broadcastInDim S256x256 ![] bcast_S_S256x256 tc
  have t2 : IVec S256x256 32 := addi t0 t1
  have t3 : IVec S256x256 32 := iotaInDim S256x256 32 1
  have t4 : IVec S256x256 1 := cmpi .sge t2 t3
  have tc0 : IVec S_ 1 := constantI S_ 1 0#1
  have t5 : IVec S256x256 1 := broadcastInDim S256x256 ![] bcast_S_S256x256 tc0
  select t4 t5 v14

/-- Operations %16 to %28: the curve, from a distance tensor, a mask over the square and the thresholds. -/
def curve (d : FVec Ideal S32x256x256 .f32) (tri : IVec S256x256 1) (T : FVec Ideal S32 .f32) : FVec Ideal S32x32 .f32 :=
  have v16 : FVec Ideal S32x256x256x1 .f32 := broadcastInDim S32x256x256x1 ![0, 1, 2] bcast_S32x256x256_S32x256x256x1_0_1_2 d
  have v17 : FVec Ideal S1x1x1x32 .f32 := broadcastInDim S1x1x1x32 ![3] bcast_S32_S1x1x1x32_3 T
  have v18 : FVec Ideal S32x256x256x32 .f32 := broadcastInDim S32x256x256x32 ![0, 1, 2, 3] bcast_S32x256x256x1_S32x256x256x32_0_1_2_3 v16
  have v19 : FVec Ideal S32x256x256x32 .f32 := broadcastInDim S32x256x256x32 ![0, 1, 2, 3] bcast_S1x1x1x32_S32x256x256x32_0_1_2_3 v17
  have v20 : IVec S32x256x256x32 1 := cmpf .ole v18 v19
  have v21 : IVec S1x256x256x1 1 := broadcastInDim S1x256x256x1 ![1, 2] bcast_S256x256_S1x256x256x1_1_2 tri
  have v22 : IVec S32x256x256x32 1 := broadcastInDim S32x256x256x32 ![0, 1, 2, 3] bcast_S1x256x256x1_S32x256x256x32_0_1_2_3 v21
  have v23 : IVec S32x256x256x32 1 := andi v20 v22
  have v24 : IVec S32x256x256x32 32 := extui 32 v23 natLt_1_32
  have c_3 : IVec S_ 32 := constantI S_ 32 0#32
  have v25 : IVec S32x32 32 := Host.reduce IntOp.addi v24 c_3 reducesTo_S32x256x256x32_S32x32_d1_2 h_S_
  have v26 : FVec Ideal S32x32 .f32 := sitofp .f32 v25
  have cst_4 : FVec Ideal S_ .f32 := constant S_ .f32 0x43800000#32
  have v27 : FVec Ideal S32x32 .f32 := broadcastInDim S32x32 ![] bcast_S_S32x32 cst_4
  subf v27 v26

/-- Operations %29 to %37 with the outlined clip at zero: the perceptron. -/
def mlp (e : FVec Ideal S32x32 .f32) (W1 : FVec Ideal S32x128 .f32) (B1 : FVec Ideal S128 .f32)
    (W2 : FVec Ideal S128x64 .f32) (B2 : FVec Ideal S64 .f32) : FVec Ideal S32x64 .f32 :=
  have v29 : FVec Ideal S32x128 .f32 := Host.dotGeneral dot_S32x32_S32x128_S32x128_1_0_0_1_n_n none e W1
  have v30 : FVec Ideal S1x128 .f32 := broadcastInDim S1x128 ![1] bcast_S128_S1x128_1 B1
  have v31 : FVec Ideal S32x128 .f32 := broadcastInDim S32x128 ![0, 1] bcast_S1x128_S32x128_0_1 v30
  have v32 : FVec Ideal S32x128 .f32 := addf v29 v31
  have rc : FVec Ideal S_ .f32 := constant S_ .f32 0x00000000#32
  have r0 : FVec Ideal S32x128 .f32 := broadcastInDim S32x128 ![] bcast_S_S32x128 rc
  have v33 : FVec Ideal S32x128 .f32 := maximumf v32 r0
  have v34 : FVec Ideal S32x64 .f32 := Host.dotGeneral dot_S32x128_S128x64_S32x64_1_0_0_1_n_n none v33 W2
  have v35 : FVec Ideal S1x64 .f32 := broadcastInDim S1x64 ![1] bcast_S64_S1x64_1 B2
  have v36 : FVec Ideal S32x64 .f32 := broadcastInDim S32x64 ![0, 1] bcast_S1x64_S32x64_0_1 v35
  addf v34 v36

/-- The program's result as one function of its five arguments. -/
def out (X : FVec Ideal S32x256x3 .f32) (W1 : FVec Ideal S32x128 .f32) (B1 : FVec Ideal S128 .f32)
    (W2 : FVec Ideal S128x64 .f32) (B2 : FVec Ideal S64 .f32) : FVec Ideal S32x64 .f32 :=
  mlp (curve (dist X) triu thrVec) W1 B1 W2 B2

end Cert.ReferenceIdeal.Term

end
-- ==== Proof.RefDist.lean ====
/-
  The reference's distance tensor, entry by entry: entry `(b, i, j)` is the root of the clipped
  `|p|² + |q|² − 2 p·q` for `p`, `q` points `i`, `j` of cloud `b` — `distOf` of `sqGram`.

  Each stage is read at one entry: the sum over the coordinate axis is the initial value plus the three
  squared coordinates of a point; laid along the rows it reads point `i`, along the columns point `j`;
  the batched product, its one contracted axis re-indexed by the coordinate, is the inner product of the
  two points; the two splats are the numbers 2 and 0. The clip and the root then apply to that entry.
-/
import proofs.«403404_j10728828306120_3_alg».proof.Proof.RefTerm
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Term

open Idealize.ShloMosaic Idealize.ShloMosaic.ValueIdx Cert.ReferenceIdeal Cert.ReferenceIdeal.Facts₀ Cert.Rips

/-- Point `i` of cloud `b`: its three coordinates. -/
def pt (X : FVec Ideal S32x256x3 .f32) (b : Fin 32) (i : Fin 256) : Fin 3 → EReal := fun d => X (ix3 b i d)

/-- The sum over the coordinate axis, from the initial value. -/
private theorem norm_apply (Y : FVec Ideal S32x256x3 .f32) (init : FVec Ideal S_ .f32) (b : Fin 32) (i : Fin 256) :
    Host.reduceAdd Y init reducesTo_S32x256x3_S32x256_d2 h_S_ (ix2 b i) = init ix0 + ∑ d : Fin 3, Y (ix3 b i d) := by
  have hR : S32x256x3.Reduces [2] S32x256 := by decide
  refine (hostReduceAdd_apply Y init reducesTo_S32x256x3_S32x256_d2 h_S_ (ix2 b i)).trans ?_
  refine (Ideal.hostReduceAdd_single reducesTo_S32x256x3_S32x256_d2 hR Y _ (ix2 b i)).trans ?_
  rw [eq_ix0 (Shape.Idx.first h_S_)]
  refine congrArg (init ix0 + ·) (Finset.sum_congr rfl fun d _ => congrArg Y ?_)
  funext a
  match a with
  | ⟨0, _⟩ => rfl
  | ⟨1, _⟩ => rfl
  | ⟨2, _⟩ => rfl

/-- A per-point value laid along the rows of each cloud's square: entry `(b, i, j)` reads point `i`. -/
private theorem rows_apply {α : Type} (v : S32x256.Idx → α) (b : Fin 32) (i j : Fin 256) :
    broadcastInDim S32x256x256 ![0, 1, 2] bcast_S32x256x1_S32x256x256_0_1_2
        (broadcastInDim S32x256x1 ![0, 1] bcast_S32x256_S32x256x1_0_1 v) (ix3 b i j) = v (ix2 b i) := by
  refine (broadcastInDim_apply ![0, 1, 2] bcast_S32x256x1_S32x256x256_0_1_2 _ (ix3 b i j) (ix3 b i (0 : Fin 1)) ?_).trans ?_
  · intro a
    match a with
    | ⟨0, _⟩ => rfl
    | ⟨1, _⟩ => rfl
    | ⟨2, _⟩ => rfl
  · refine broadcastInDim_apply ![0, 1] bcast_S32x256_S32x256x1_0_1 v (ix3 b i (0 : Fin 1)) (ix2 b i) ?_
    intro a
    match a with
    | ⟨0, _⟩ => rfl
    | ⟨1, _⟩ => rfl

/-- The same laid along the columns: entry `(b, i, j)` reads point `j`. -/
private theorem cols_apply {α : Type} (v : S32x256.Idx → α) (b : Fin 32) (i j : Fin 256) :
    broadcastInDim S32x256x256 ![0, 1, 2] bcast_S32x1x256_S32x256x256_0_1_2
        (broadcastInDim S32x1x256 ![0, 2] bcast_S32x256_S32x1x256_0_2 v) (ix3 b i j) = v (ix2 b j) := by
  refine (broadcastInDim_apply ![0, 1, 2] bcast_S32x1x256_S32x256x256_0_1_2 _ (ix3 b i j) (ix3 b (0 : Fin 1) j) ?_).trans ?_
  · intro a
    match a with
    | ⟨0, _⟩ => rfl
    | ⟨1, _⟩ => rfl
    | ⟨2, _⟩ => rfl
  · refine broadcastInDim_apply ![0, 2] bcast_S32x256_S32x1x256_0_2 v (ix3 b (0 : Fin 1) j) (ix2 b j) ?_
    intro a
    match a with
    | ⟨0, _⟩ => rfl
    | ⟨1, _⟩ => rfl

/-- The batched product contracting the coordinate axis: entry `(b, i, j)` is the inner product of points `i` and `j` of cloud `b`. -/
private theorem gram_apply (A B : FVec Ideal S32x256x3 .f32) (b : Fin 32) (i j : Fin 256) :
    Host.dotGeneral dot_S32x256x3_S32x256x3_S32x256x256_2_2_1_1_0_0 none A B (ix3 b i j)
      = ∑ d : Fin 3, A (ix3 b i d) * B (ix3 b j d) := by
  show FloatOps.dotGeneral dot_S32x256x3_S32x256x3_S32x256x256_2_2_1_1_0_0 none _ A B (ix3 b i j) = _
  rw [Ideal.dotGeneral_apply,
    ← Equiv.sum_comp (contrEquiv1 dot_S32x256x3_S32x256x3_S32x256x256_2_2_1_1_0_0 3 rfl rfl).symm]
  refine Finset.sum_congr rfl fun c _ => ?_
  have hc := contrEquiv1_symm_val dot_S32x256x3_S32x256x3_S32x256x256_2_2_1_1_0_0 3 rfl rfl c
  have hl : dot_S32x256x3_S32x256x3_S32x256x256_2_2_1_1_0_0.lhsIdx (ix3 b i j)
      ((contrEquiv1 dot_S32x256x3_S32x256x3_S32x256x256_2_2_1_1_0_0 3 rfl rfl).symm c) = ix3 b i c := by
    funext ax; apply Fin.ext
    match ax with
    | ⟨0, _⟩ => simp [DotDims.lhsIdx, dot_S32x256x3_S32x256x3_S32x256x256_2_2_1_1_0_0]; rfl
    | ⟨1, _⟩ => simp [DotDims.lhsIdx, dot_S32x256x3_S32x256x3_S32x256x256_2_2_1_1_0_0]; rfl
    | ⟨2, _⟩ => simp [DotDims.lhsIdx, dot_S32x256x3_S32x256x3_S32x256x256_2_2_1_1_0_0]; exact hc
  have hr : dot_S32x256x3_S32x256x3_S32x256x256_2_2_1_1_0_0.rhsIdx (ix3 b i j)
      ((contrEquiv1 dot_S32x256x3_S32x256x3_S32x256x256_2_2_1_1_0_0 3 rfl rfl).symm c) = ix3 b j c := by
    funext ax; apply Fin.ext
    match ax with
    | ⟨0, _⟩ => simp [DotDims.rhsIdx, dot_S32x256x3_S32x256x3_S32x256x256_2_2_1_1_0_0]; rfl
    | ⟨1, _⟩ => simp [DotDims.rhsIdx, dot_S32x256x3_S32x256x3_S32x256x256_2_2_1_1_0_0]; rfl
    | ⟨2, _⟩ => simp [DotDims.rhsIdx, dot_S32x256x3_S32x256x3_S32x256x256_2_2_1_1_0_0]; exact hc
  rw [hl, hr]

theorem dist_apply (X : FVec Ideal S32x256x3 .f32) (b : Fin 32) (i j : Fin 256) :
    dist X (ix3 b i j) = distOf (sqGram (pt X b i) (pt X b j)) := by
  have hn : ∀ k : Fin 256,
      Host.reduceAdd (mulf X X) (constant (F := Ideal) S_ .f32 0x00000000#32) reducesTo_S32x256x3_S32x256_d2 h_S_ (ix2 b k)
        = 0 + ∑ d : Fin 3, pt X b k d * pt X b k d := by
    intro k
    refine (norm_apply (mulf X X) (constant (F := Ideal) S_ .f32 0x00000000#32) b k).trans ?_
    rw [constant_apply, Ideal.ofBits_zero_f32]
    rfl
  unfold dist
  show Ideal.sqrt (max (
      (broadcastInDim S32x256x256 ![0, 1, 2] bcast_S32x256x1_S32x256x256_0_1_2
          (broadcastInDim S32x256x1 ![0, 1] bcast_S32x256_S32x256x1_0_1
            (Host.reduceAdd (mulf X X) (constant (F := Ideal) S_ .f32 0x00000000#32) reducesTo_S32x256x3_S32x256_d2 h_S_)) (ix3 b i j)
        + broadcastInDim S32x256x256 ![0, 1, 2] bcast_S32x1x256_S32x256x256_0_1_2
          (broadcastInDim S32x1x256 ![0, 2] bcast_S32x256_S32x1x256_0_2
            (Host.reduceAdd (mulf X X) (constant (F := Ideal) S_ .f32 0x00000000#32) reducesTo_S32x256x3_S32x256_d2 h_S_)) (ix3 b i j))
      - broadcastInDim S32x256x256 ![] bcast_S_S32x256x256 (constant (F := Ideal) S_ .f32 0x40000000#32) (ix3 b i j)
        * Host.dotGeneral dot_S32x256x3_S32x256x3_S32x256x256_2_2_1_1_0_0 none X X (ix3 b i j))
      (broadcastInDim S32x256x256 ![] bcast_S_S32x256x256 (constant (F := Ideal) S_ .f32 0x00000000#32) (ix3 b i j)))
    = distOf (sqGram (pt X b i) (pt X b j))
  rw [rows_apply, cols_apply, hn i, hn j, gram_apply, broadcastInDim_scalar_apply, broadcastInDim_scalar_apply,
    constant_apply, constant_apply, Ideal.ofBits_zero_f32, ofBits_two]
  rfl

end Cert.ReferenceIdeal.Term

end
-- ==== Proof.RefTri.lean ====
/-
  The triangle mask, entry by entry: the bit at `(i, j)` is set exactly when `i < j`. Row and column
  numbers are below 256, so comparing them as signed 32-bit words compares the numbers.

  Read at `(i, j)`, the mask is a choice between the two constant bits `0` and `1`, steered by the signed
  comparison `i + 0 ≥ j` of the row and column numbers written as 32-bit words: where the comparison
  holds the entry is `0`, elsewhere `1`. Both words are below `2³¹`, so the signed comparison is the
  comparison `j ≤ i` of natural numbers, and its failure is `i < j`.
-/
import proofs.«403404_j10728828306120_3_alg».proof.Proof.RefTerm
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.Term

open Idealize.ShloMosaic Idealize.ShloMosaic.ValueIdx Cert.ReferenceIdeal Cert.ReferenceIdeal.Facts₀ Cert.Rips

/-- The mask at `(i, j)`, with every splat and both position tensors read off. -/
private theorem triu_read (i j : Fin 256) :
    triu (ix2 i j) =
      Scalar.select (IntOp.cmpi .sge (BitVec.ofNat 32 i.val + 0#32) (BitVec.ofNat 32 j.val)) (0#1 : BitVec 1) (1#1 : BitVec 1) := rfl

theorem triu_apply (i j : Fin 256) : triu (ix2 i j) = BitVec.ofBool (decide (i < j)) := by
  rw [triu_read, BitVec.add_zero]
  have hi : (BitVec.ofNat 32 i.val).toNat < 2 ^ 31 := by
    rw [BitVec.toNat_ofNat]; have := i.isLt; omega
  have hj : (BitVec.ofNat 32 j.val).toNat < 2 ^ 31 := by
    rw [BitVec.toNat_ofNat]; have := j.isLt; omega
  have hiv : (BitVec.ofNat 32 i.val).toNat = i.val := by
    rw [BitVec.toNat_ofNat]; have := i.isLt; omega
  have hjv : (BitVec.ofNat 32 j.val).toNat = j.val := by
    rw [BitVec.toNat_ofNat]; have := j.isLt; omega
  have key := StableHlo.Predicate.sge_iff_toNat hi hj
  rw [hiv, hjv] at key
  by_cases h : i < j
  · have hne : ¬ IntOp.cmpi .sge (BitVec.ofNat 32 i.val) (BitVec.ofNat 32 j.val) = 1#1 := by
      intro hc; have := key.mp hc; have := Fin.lt_def.mp h; omega
    have h0 : IntOp.cmpi .sge (BitVec.ofNat 32 i.val) (BitVec.ofNat 32 j.val) = 0#1 := by
      generalize IntOp.cmpi .sge (BitVec.ofNat 32 i.val) (BitVec.ofNat 32 j.val) = c at hne
      revert hne; revert c; decide
    rw [h0, select_zero, decide_eq_true h]; rfl
  · have h1 : IntOp.cmpi .sge (BitVec.ofNat 32 i.val) (BitVec.ofNat 32 j.val) = 1#1 :=
      key.mpr (by have := Fin.not_lt.mp h; exact Fin.le_def.mp this)
    rw [h1, select_one, decide_eq_false h]; rfl

end Cert.ReferenceIdeal.Term

end
-- ==== Proof.RefCurve.lean ====
/-
  The reference's curve, entry by entry. Over a mask that is the strictly upper triangle, entry `(b, s)`
  is 256 minus the number of strictly upper pairs of cloud `b` within threshold `s`: the masked
  comparison bits, widened to words, sum without wrapping (at most 65 536 ones), and the word's signed
  value is that count.

  The bit at `(b, i, j, s)` reads the distance at `(b, i, j)`, threshold `s` and the mask at `(i, j)` through
  the layouts, so it is set exactly when `i < j` and the distance is within the threshold. The box indices
  that the sum over the two point axes sends to `(b, s)` are the `(b, i, j, s)`, in bijection with the pairs
  `(i, j)`; the sum of the widened bits over them is the number of set bits, which is the number of edges.
-/
import proofs.«403404_j10728828306120_3_alg».proof.Proof.RefTerm
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Idealize.ShloMosaic.Lib.KernelVsHost

noncomputable section

namespace Cert.ReferenceIdeal.Term

open Idealize.ShloMosaic Idealize.ShloMosaic.ValueIdx Cert.ReferenceIdeal Cert.ReferenceIdeal.Facts₀ Cert.Rips

/-- The program's dense constant and the threshold table list the same thirty-two words. -/
private theorem lit0_eq_thrW : lit0 = thrW := by
  funext s; fin_cases s <;> rfl

/-- The program's threshold constant lists the thresholds in order. -/
theorem thrVec_apply (s : Fin 32) : thrVec (ix1 s) = thr s := by
  have h : S32.rowMajor (ix1 s) = s := Fin.ext (Shape.rowMajor_val_one (ix1 s))
  show FloatOps.ofBits (F := Ideal) .f32 (lit0 (S32.rowMajor (ix1 s))) = Ideal.ofBits .f32 (thrW s)
  rw [h, lit0_eq_thrW]
  rfl

/-- A distance laid out over the four axes reads, at `(b, i, j, s)`, the distance at `(b, i, j)`. -/
private theorem bcast_dist_apply (d : FVec Ideal S32x256x256 .f32) (b : Fin 32) (i j : Fin 256) (s : Fin 32) :
    broadcastInDim S32x256x256x32 ![0, 1, 2, 3] bcast_S32x256x256x1_S32x256x256x32_0_1_2_3
      (broadcastInDim S32x256x256x1 ![0, 1, 2] bcast_S32x256x256_S32x256x256x1_0_1_2 d) (ix4 b i j s)
      = d (ix3 b i j) := by
  refine (broadcastInDim_apply _ _ _ (ix4 b i j s) (ix4 b i j (0 : Fin 1)) ?_).trans ?_
  · intro a; match a with | ⟨0, _⟩ => rfl | ⟨1, _⟩ => rfl | ⟨2, _⟩ => rfl | ⟨3, _⟩ => rfl
  · refine broadcastInDim_apply _ _ _ (ix4 b i j (0 : Fin 1)) (ix3 b i j) ?_
    intro a; match a with | ⟨0, _⟩ => rfl | ⟨1, _⟩ => rfl | ⟨2, _⟩ => rfl

/-- A threshold vector laid out over the four axes reads, at `(b, i, j, s)`, entry `s`. -/
private theorem bcast_thr_apply (T : FVec Ideal S32 .f32) (b : Fin 32) (i j : Fin 256) (s : Fin 32) :
    broadcastInDim S32x256x256x32 ![0, 1, 2, 3] bcast_S1x1x1x32_S32x256x256x32_0_1_2_3
      (broadcastInDim S1x1x1x32 ![3] bcast_S32_S1x1x1x32_3 T) (ix4 b i j s)
      = T (ix1 s) := by
  refine (broadcastInDim_apply _ _ _ (ix4 b i j s) (ix4 (0 : Fin 1) (0 : Fin 1) (0 : Fin 1) s) ?_).trans ?_
  · intro a; match a with | ⟨0, _⟩ => rfl | ⟨1, _⟩ => rfl | ⟨2, _⟩ => rfl | ⟨3, _⟩ => rfl
  · refine broadcastInDim_apply _ _ _ (ix4 (0 : Fin 1) (0 : Fin 1) (0 : Fin 1) s) (ix1 s) ?_
    intro a; match a with | ⟨0, _⟩ => rfl

/-- A mask over the square laid out over the four axes reads, at `(b, i, j, s)`, the mask at `(i, j)`. -/
private theorem bcast_mask_apply (tri : IVec S256x256 1) (b : Fin 32) (i j : Fin 256) (s : Fin 32) :
    broadcastInDim S32x256x256x32 ![0, 1, 2, 3] bcast_S1x256x256x1_S32x256x256x32_0_1_2_3
      (broadcastInDim S1x256x256x1 ![1, 2] bcast_S256x256_S1x256x256x1_1_2 tri) (ix4 b i j s)
      = tri (ix2 i j) := by
  refine (broadcastInDim_apply _ _ _ (ix4 b i j s) (ix4 (0 : Fin 1) i j (0 : Fin 1)) ?_).trans ?_
  · intro a; match a with | ⟨0, _⟩ => rfl | ⟨1, _⟩ => rfl | ⟨2, _⟩ => rfl | ⟨3, _⟩ => rfl
  · refine broadcastInDim_apply _ _ _ (ix4 (0 : Fin 1) i j (0 : Fin 1)) (ix2 i j) ?_
    intro a; match a with | ⟨0, _⟩ => rfl | ⟨1, _⟩ => rfl

/-- The conjunction of two decided bits is set exactly when both are. -/
private theorem andi_ofBool_eq_one (a c : Bool) :
    IntOp.andi (BitVec.ofBool a) (BitVec.ofBool c) = 1#1 ↔ a = true ∧ c = true := by
  cases a <;> cases c <;> decide

/-- The masked comparison bits of the curve. -/
private def bits (d : FVec Ideal S32x256x256 .f32) (tri : IVec S256x256 1) (T : FVec Ideal S32 .f32) :
    IVec S32x256x256x32 1 :=
  andi
    (cmpf .ole
      (broadcastInDim S32x256x256x32 ![0, 1, 2, 3] bcast_S32x256x256x1_S32x256x256x32_0_1_2_3
        (broadcastInDim S32x256x256x1 ![0, 1, 2] bcast_S32x256x256_S32x256x256x1_0_1_2 d))
      (broadcastInDim S32x256x256x32 ![0, 1, 2, 3] bcast_S1x1x1x32_S32x256x256x32_0_1_2_3
        (broadcastInDim S1x1x1x32 ![3] bcast_S32_S1x1x1x32_3 T)))
    (broadcastInDim S32x256x256x32 ![0, 1, 2, 3] bcast_S1x256x256x1_S32x256x256x32_0_1_2_3
      (broadcastInDim S1x256x256x1 ![1, 2] bcast_S256x256_S1x256x256x1_1_2 tri))

/-- Over the strictly upper triangle, the bit at `(b, i, j, s)` is set exactly when `i < j` and the distance
    at `(b, i, j)` is within threshold `s`. -/
private theorem bits_eq_one_iff (d : FVec Ideal S32x256x256 .f32) (tri : IVec S256x256 1) (T : FVec Ideal S32 .f32)
    (htri : ∀ i j : Fin 256, tri (ix2 i j) = BitVec.ofBool (decide (i < j))) (b : Fin 32) (i j : Fin 256) (s : Fin 32) :
    bits d tri T (ix4 b i j s) = 1#1 ↔ i < j ∧ d (ix3 b i j) ≤ T (ix1 s) := by
  show IntOp.andi (FloatOps.cmpf .ole _ _) _ = 1#1 ↔ _
  rw [bcast_dist_apply, bcast_thr_apply, bcast_mask_apply, htri]
  show IntOp.andi (BitVec.ofBool (decide (d (ix3 b i j) ≤ T (ix1 s)))) (BitVec.ofBool (decide (i < j))) = 1#1 ↔ _
  rw [andi_ofBool_eq_one, decide_eq_true_iff, decide_eq_true_iff]
  exact And.comm

/-- The indices of the four-axis box that the reduction over the two point axes sends to `(b, s)` are those whose
    first coordinate is `b` and whose last is `s`. -/
private theorem drop_eq_iff (h : S32x256x256x32.ReducesTo [1, 2] S32x32) (k : S32x256x256x32.Idx) (b s : Fin 32) :
    h.drop k = ix2 b s ↔ k 0 = b ∧ k 3 = s := by
  have h0 : (h.drop k 0 : Nat) = k 0 := Shape.ReducesTo.drop_apply_val_of_eq h k 0 0
  have h1 : (h.drop k 1 : Nat) = k 3 := Shape.ReducesTo.drop_apply_val_of_eq h k 1 3
  constructor
  · intro e
    rw [e] at h0 h1
    exact ⟨Fin.ext h0.symm, Fin.ext h1.symm⟩
  · rintro ⟨e0, e1⟩
    funext a
    match a with
    | ⟨0, _⟩ => exact Fin.ext (h0.trans (congrArg Fin.val e0))
    | ⟨1, _⟩ => exact Fin.ext (h1.trans (congrArg Fin.val e1))

/-- Summing the widened bits of a four-axis mask over the two point axes gives, at `(b, s)`, the number of pairs
    `(i, j)` whose bit at `(b, i, j, s)` is set: the sum has at most 65 536 ones and does not wrap. -/
private theorem toNat_reduce_count (mask : IVec S32x256x256x32 1) (hw : 1 < 32)
    (h : S32x256x256x32.ReducesTo [1, 2] S32x32) {u : Shape} (hu : 0 < u.numel) (b s : Fin 32) :
    (Host.reduce IntOp.addi (extui 32 mask hw) (constantI u 32 0#32) h hu (ix2 b s)).toNat
      = (Finset.univ.filter (fun p : Fin 256 × Fin 256 => mask (ix4 b p.1 p.2 s) = 1#1)).card := by
  classical
  rw [Host.reduce_eq_fold]
  have hval : ∀ k, (extui 32 mask hw k).toNat = if mask k = 1#1 then 1 else 0 :=
    fun k => StableHlo.Predicate.toNat_setWidth_bit (mask k)
  have hback : ∀ k : S32x256x256x32.Idx, k 0 = b ∧ k 3 = s → ix4 b (k 1) (k 2) s = k := fun k hk => by
    funext a
    match a with
    | ⟨0, _⟩ => exact hk.1.symm
    | ⟨1, _⟩ => rfl
    | ⟨2, _⟩ => rfl
    | ⟨3, _⟩ => exact hk.2.symm
  have hsum : ∑ k ∈ Finset.univ.filter (fun k : S32x256x256x32.Idx => h.drop k = ix2 b s), (extui 32 mask hw k).toNat
      = (Finset.univ.filter (fun p : Fin 256 × Fin 256 => mask (ix4 b p.1 p.2 s) = 1#1)).card := by
    rw [Finset.card_filter]
    refine Finset.sum_bij' (fun k _ => ((k 1, k 2) : Fin 256 × Fin 256)) (fun p _ => ix4 b p.1 p.2 s)
      (fun _ _ => Finset.mem_univ _)
      (fun p _ => Finset.mem_filter.2 ⟨Finset.mem_univ _, (drop_eq_iff h _ b s).2 ⟨rfl, rfl⟩⟩)
      (fun k hk => hback k ((drop_eq_iff h k b s).1 (Finset.mem_filter.1 hk).2)) (fun _ _ => rfl) ?_
    intro k hk
    rw [hval]
    exact (congrArg (fun x => if mask x = 1#1 then 1 else 0)
      (hback k ((drop_eq_iff h k b s).1 (Finset.mem_filter.1 hk).2))).symm
  show (Finset.fold IntOp.addi 0#32 (extui 32 mask hw)
    (Finset.univ.filter fun k : S32x256x256x32.Idx => h.drop k = ix2 b s)).toNat = _
  rw [StableHlo.Predicate.toNat_fold_addi _ _ (by
    rw [hsum]
    refine lt_of_le_of_lt (Finset.card_le_univ _) ?_
    rw [Fintype.card_prod, Fintype.card_fin]; norm_num), hsum]

/-- Over the strictly upper triangle, entry `(b, s)` of the curve is 256 minus the number of edges of cloud `b`
    within threshold `s`. -/
theorem curve_apply (d : FVec Ideal S32x256x256 .f32) (tri : IVec S256x256 1)
    (htri : ∀ i j : Fin 256, tri (ix2 i j) = BitVec.ofBool (decide (i < j))) (b : Fin 32) (s : Fin 32) :
    curve d tri thrVec (ix2 b s) = eccR (fun i j => d (ix3 b i j)) s := by
  have hcnt := toNat_reduce_count (bits d tri thrVec) natLt_1_32 reducesTo_S32x256x256x32_S32x32_d1_2 h_S_ b s
  have hset : (Finset.univ.filter (fun p : Fin 256 × Fin 256 => bits d tri thrVec (ix4 b p.1 p.2 s) = 1#1))
      = Finset.univ.filter (fun p : Fin 256 × Fin 256 => p.1 < p.2 ∧ d (ix3 b p.1 p.2) ≤ thr s) :=
    Finset.filter_congr (fun p _ => by rw [bits_eq_one_iff d tri thrVec htri, thrVec_apply])
  rw [hset] at hcnt
  have hle : (Finset.univ.filter (fun p : Fin 256 × Fin 256 => p.1 < p.2 ∧ d (ix3 b p.1 p.2) ≤ thr s)).card ≤ 65536 := by
    refine le_trans (Finset.card_le_univ _) ?_
    rw [Fintype.card_prod, Fintype.card_fin]
  have hlt : (Host.reduce IntOp.addi (extui 32 (bits d tri thrVec) natLt_1_32) (constantI S_ 32 0#32)
      reducesTo_S32x256x256x32_S32x32_d1_2 h_S_ (ix2 b s)).toNat < 2 ^ 31 := by rw [hcnt]; omega
  unfold curve
  show Ideal.ofBits .f32 0x43800000#32
      - (((Host.reduce IntOp.addi (extui 32 (bits d tri thrVec) natLt_1_32) (constantI S_ 32 0#32)
          reducesTo_S32x256x256x32_S32x32_d1_2 h_S_ (ix2 b s)).toInt : ℝ) : EReal) = _
  rw [StableHlo.Predicate.toInt_eq_toNat_of_lt hlt, hcnt, Int.cast_natCast, ofBits_256]
  rfl

end Cert.ReferenceIdeal.Term

end
-- ==== Proof.RefHead.lean ====
/-
  The reference's perceptron, entry by entry: `head` of row `b` of the curve array.

  Each matrix product read at an entry is the sum over its one contracted axis of the operands' products (the
  contraction index is its one coordinate); each bias, laid along the rows, reads the bias vector at the column;
  the zero the first layer is clipped against is the number zero at every entry. With these the last addition,
  the second product, the clip and the first layer read at `(b, o)` are `head` term by term.
-/
import proofs.«403404_j10728828306120_3_alg».proof.Proof.RefTerm
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Term

open Idealize.ShloMosaic Idealize.ShloMosaic.ValueIdx Cert.ReferenceIdeal Cert.ReferenceIdeal.Facts₀ Cert.Rips

/-! ## The first product, `[32, 32] × [32, 128]`: its operand indices, axis by axis -/

private theorem dotA_lhs0 (j : S32x128.Idx) (k : dot_S32x32_S32x128_S32x128_1_0_0_1_n_n.contr.Idx) :
    (dot_S32x32_S32x128_S32x128_1_0_0_1_n_n.lhsIdx j k 0).val = (j 0).val := rfl
private theorem dotA_lhs1 (j : S32x128.Idx) (k : dot_S32x32_S32x128_S32x128_1_0_0_1_n_n.contr.Idx) :
    (dot_S32x32_S32x128_S32x128_1_0_0_1_n_n.lhsIdx j k 1).val = (k ⟨0, by decide⟩).val := rfl
private theorem dotA_rhs0 (j : S32x128.Idx) (k : dot_S32x32_S32x128_S32x128_1_0_0_1_n_n.contr.Idx) :
    (dot_S32x32_S32x128_S32x128_1_0_0_1_n_n.rhsIdx j k 0).val = (k ⟨0, by decide⟩).val := rfl
private theorem dotA_rhs1 (j : S32x128.Idx) (k : dot_S32x32_S32x128_S32x128_1_0_0_1_n_n.contr.Idx) :
    (dot_S32x32_S32x128_S32x128_1_0_0_1_n_n.rhsIdx j k 1).val = (j 1).val := rfl

/-- The first product at `(b, n)`: the sum over the thirty-two curve samples. -/
private theorem dotA_apply (L : FVec Ideal S32x32 .f32) (R : FVec Ideal S32x128 .f32) (b : Fin 32) (n : Fin 128) :
    Host.dotGeneral dot_S32x32_S32x128_S32x128_1_0_0_1_n_n none L R (ix2 b n)
      = ∑ s : Fin 32, L (ix2 b s) * R (ix2 s n) := by
  simp only [Host.dotGeneral]
  rw [Ideal.dotGeneral_apply]
  rw [← Equiv.sum_comp (contrEquiv1 dot_S32x32_S32x128_S32x128_1_0_0_1_n_n 32 rfl rfl).symm]
  refine Finset.sum_congr rfl fun s _ => ?_
  have hl : dot_S32x32_S32x128_S32x128_1_0_0_1_n_n.lhsIdx (ix2 b n)
      ((contrEquiv1 dot_S32x32_S32x128_S32x128_1_0_0_1_n_n 32 rfl rfl).symm s) = ix2 b s := by
    funext a
    match a with
    | ⟨0, _⟩ => exact Fin.ext (dotA_lhs0 _ _)
    | ⟨1, _⟩ => exact Fin.ext ((dotA_lhs1 _ _).trans (contrEquiv1_symm_val _ 32 rfl rfl s))
  have hr : dot_S32x32_S32x128_S32x128_1_0_0_1_n_n.rhsIdx (ix2 b n)
      ((contrEquiv1 dot_S32x32_S32x128_S32x128_1_0_0_1_n_n 32 rfl rfl).symm s) = ix2 s n := by
    funext a
    match a with
    | ⟨0, _⟩ => exact Fin.ext ((dotA_rhs0 _ _).trans (contrEquiv1_symm_val _ 32 rfl rfl s))
    | ⟨1, _⟩ => exact Fin.ext (dotA_rhs1 _ _)
  rw [hl, hr]

/-! ## The second product, `[32, 128] × [128, 64]` -/

private theorem dotB_lhs0 (j : S32x64.Idx) (k : dot_S32x128_S128x64_S32x64_1_0_0_1_n_n.contr.Idx) :
    (dot_S32x128_S128x64_S32x64_1_0_0_1_n_n.lhsIdx j k 0).val = (j 0).val := rfl
private theorem dotB_lhs1 (j : S32x64.Idx) (k : dot_S32x128_S128x64_S32x64_1_0_0_1_n_n.contr.Idx) :
    (dot_S32x128_S128x64_S32x64_1_0_0_1_n_n.lhsIdx j k 1).val = (k ⟨0, by decide⟩).val := rfl
private theorem dotB_rhs0 (j : S32x64.Idx) (k : dot_S32x128_S128x64_S32x64_1_0_0_1_n_n.contr.Idx) :
    (dot_S32x128_S128x64_S32x64_1_0_0_1_n_n.rhsIdx j k 0).val = (k ⟨0, by decide⟩).val := rfl
private theorem dotB_rhs1 (j : S32x64.Idx) (k : dot_S32x128_S128x64_S32x64_1_0_0_1_n_n.contr.Idx) :
    (dot_S32x128_S128x64_S32x64_1_0_0_1_n_n.rhsIdx j k 1).val = (j 1).val := rfl

/-- The second product at `(b, o)`: the sum over the hundred and twenty-eight hidden units. -/
private theorem dotB_apply (L : FVec Ideal S32x128 .f32) (R : FVec Ideal S128x64 .f32) (b : Fin 32) (o : Fin 64) :
    Host.dotGeneral dot_S32x128_S128x64_S32x64_1_0_0_1_n_n none L R (ix2 b o)
      = ∑ n : Fin 128, L (ix2 b n) * R (ix2 n o) := by
  simp only [Host.dotGeneral]
  rw [Ideal.dotGeneral_apply]
  rw [← Equiv.sum_comp (contrEquiv1 dot_S32x128_S128x64_S32x64_1_0_0_1_n_n 128 rfl rfl).symm]
  refine Finset.sum_congr rfl fun n _ => ?_
  have hl : dot_S32x128_S128x64_S32x64_1_0_0_1_n_n.lhsIdx (ix2 b o)
      ((contrEquiv1 dot_S32x128_S128x64_S32x64_1_0_0_1_n_n 128 rfl rfl).symm n) = ix2 b n := by
    funext a
    match a with
    | ⟨0, _⟩ => exact Fin.ext (dotB_lhs0 _ _)
    | ⟨1, _⟩ => exact Fin.ext ((dotB_lhs1 _ _).trans (contrEquiv1_symm_val _ 128 rfl rfl n))
  have hr : dot_S32x128_S128x64_S32x64_1_0_0_1_n_n.rhsIdx (ix2 b o)
      ((contrEquiv1 dot_S32x128_S128x64_S32x64_1_0_0_1_n_n 128 rfl rfl).symm n) = ix2 n o := by
    funext a
    match a with
    | ⟨0, _⟩ => exact Fin.ext ((dotB_rhs0 _ _).trans (contrEquiv1_symm_val _ 128 rfl rfl n))
    | ⟨1, _⟩ => exact Fin.ext (dotB_rhs1 _ _)
  rw [hl, hr]

/-! ## The biases laid along the rows, and the zero splat -/

/-- The first bias, as a `[1, 128]` row repeated down the thirty-two rows, reads the bias at the column. -/
private theorem biasA_apply (B1 : FVec Ideal S128 .f32) (b : Fin 32) (n : Fin 128) :
    broadcastInDim S32x128 ![0, 1] bcast_S1x128_S32x128_0_1
        (broadcastInDim S1x128 ![1] bcast_S128_S1x128_1 B1) (ix2 b n) = B1 (ix1 n) := by
  rw [broadcastInDim_apply _ _ _ (ix2 b n) (ix2 (0 : Fin 1) n)
    (fun a => match a with | ⟨0, _⟩ => rfl | ⟨1, _⟩ => rfl)]
  exact broadcastInDim_apply _ _ _ (ix2 (0 : Fin 1) n) (ix1 n) (fun a => match a with | ⟨0, _⟩ => rfl)

/-- The second bias likewise. -/
private theorem biasB_apply (B2 : FVec Ideal S64 .f32) (b : Fin 32) (o : Fin 64) :
    broadcastInDim S32x64 ![0, 1] bcast_S1x64_S32x64_0_1
        (broadcastInDim S1x64 ![1] bcast_S64_S1x64_1 B2) (ix2 b o) = B2 (ix1 o) := by
  rw [broadcastInDim_apply _ _ _ (ix2 b o) (ix2 (0 : Fin 1) o)
    (fun a => match a with | ⟨0, _⟩ => rfl | ⟨1, _⟩ => rfl)]
  exact broadcastInDim_apply _ _ _ (ix2 (0 : Fin 1) o) (ix1 o) (fun a => match a with | ⟨0, _⟩ => rfl)

/-- The zero the first layer is clipped against is `0` at every entry. -/
private theorem zeroA_apply (j : S32x128.Idx) :
    broadcastInDim S32x128 ![] bcast_S_S32x128 (constant (F := Ideal) S_ .f32 0x00000000#32) j = 0 := by
  rw [broadcastInDim_apply _ _ _ j ix0 (fun a => a.elim0), constant_apply, Ideal.ofBits_zero_f32]

/-- The perceptron at `(b, o)` is `head` of row `b` of the curve array, of the two weight matrices and the two biases. -/
theorem mlp_apply (e : FVec Ideal S32x32 .f32) (W1 : FVec Ideal S32x128 .f32) (B1 : FVec Ideal S128 .f32)
    (W2 : FVec Ideal S128x64 .f32) (B2 : FVec Ideal S64 .f32) (b : Fin 32) (o : Fin 64) :
    mlp e W1 B1 W2 B2 (ix2 b o)
      = head (fun s => e (ix2 b s)) (fun s n => W1 (ix2 s n)) (fun n => B1 (ix1 n)) (fun n o' => W2 (ix2 n o'))
          (fun o' => B2 (ix1 o')) o := by
  unfold mlp head
  refine (addf_apply _ _ _).trans ?_
  rw [biasB_apply, dotB_apply]
  refine congrArg (· + B2 (ix1 o)) (Finset.sum_congr rfl fun n _ => ?_)
  rw [maximumf_apply, addf_apply, dotA_apply, biasA_apply, zeroA_apply]

end Cert.ReferenceIdeal.Term

end
-- ==== Proof.RefRead.lean ====
/-
  The reference's result, entry by entry: entry `(b, o)` is `head` of cloud `b`'s curve, counted directly
  over the strictly upper pairs (`eccR`), over the cloud's distance matrix in its `|p|² + |q|² − 2 p·q`
  spelling. The four stages compose: the perceptron reads row `b` of the curve array, the curve reads cloud
  `b`'s square of the distance tensor under the triangle mask, the distance tensor reads the cloud's points.
-/
import proofs.«403404_j10728828306120_3_alg».proof.Proof.RefDist
import proofs.«403404_j10728828306120_3_alg».proof.Proof.RefTri
import proofs.«403404_j10728828306120_3_alg».proof.Proof.RefCurve
import proofs.«403404_j10728828306120_3_alg».proof.Proof.RefHead

noncomputable section

namespace Cert.ReferenceIdeal.Term

open Idealize.ShloMosaic Idealize.ShloMosaic.ValueIdx Cert.ReferenceIdeal Cert.ReferenceIdeal.Facts₀ Cert.Rips

/-- Cloud `b`'s distance matrix, in the reference's spelling. -/
def dmatR (X : FVec Ideal S32x256x3 .f32) (b : Fin 32) : Fin 256 → Fin 256 → EReal :=
  fun i j => distOf (sqGram (pt X b i) (pt X b j))

theorem out_apply (X : FVec Ideal S32x256x3 .f32) (W1 : FVec Ideal S32x128 .f32) (B1 : FVec Ideal S128 .f32)
    (W2 : FVec Ideal S128x64 .f32) (B2 : FVec Ideal S64 .f32) (b : Fin 32) (o : Fin 64) :
    out X W1 B1 W2 B2 (ix2 b o)
      = head (eccR (dmatR X b)) (fun s n => W1 (ix2 s n)) (fun n => B1 (ix1 n)) (fun n o' => W2 (ix2 n o'))
          (fun o' => B2 (ix1 o')) o := by
  unfold out
  rw [mlp_apply]
  have hcurve : (fun s : Fin 32 => curve (dist X) triu thrVec (ix2 b s)) = eccR (dmatR X b) := by
    funext s
    rw [curve_apply (dist X) triu triu_apply b s]
    have hD : (fun i j : Fin 256 => dist X (ix3 b i j)) = dmatR X b := by
      funext i j
      exact dist_apply X b i j
    rw [hD]
  rw [hcurve]

end Cert.ReferenceIdeal.Term

end
-- ==== Proof.RefRun.lean ====
/-
  The reference's run: its straight line of host operations, the two outlined functions unfolded at their
  calls, terminates on every weakly fair execution with the result buffer at `Term.out` of the argument
  arrays and the arguments unchanged.

  The program is a list of fifty-five operations: twenty of its own, the nine of the triangle function
  written into that call's buffers, nineteen more of its own, the three of the clip at zero written into
  that call's buffers, and the last four. A straight line's final memory is the fold of the operations'
  results over the launch contents; read at the result buffer, the fold is the composition of the
  operations' functions along the data flow, which is `Term.out` by unfolding; read at an argument
  buffer, which no operation writes, it is the launch contents.
-/
import proofs.«403404_j10728828306120_3_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two calls unfolded: the triangle function's nine over the
    buffers of the first call (its argument the all-ones square), the clip's three over the buffers of the
    second (its argument the first layer's sum). -/
abbrev ops : List (HloOp τ sig (Elt F)) :=
  [ nullary main_cst (fun i => FloatOps.ofBits .f32 (lit0 (S32.rowMajor i))),
    binary main_arg0 main_arg0 main_v0 mulf,
    nullary main_cst_0 (constant S_ .f32 0x00000000#32),
    binary main_v0 main_cst_0 main_v1 (fun x v => Host.reduceAdd x v reducesTo_S32x256x3_S32x256_d2 h_S_),
    unary main_v1 main_v2 (broadcastInDim S32x256x1 ![0, 1] bcast_S32x256_S32x256x1_0_1),
    unary main_v1 main_v3 (broadcastInDim S32x1x256 ![0, 2] bcast_S32x256_S32x1x256_0_2),
    unary main_v2 main_v4 (broadcastInDim S32x256x256 ![0, 1, 2] bcast_S32x256x1_S32x256x256_0_1_2),
    unary main_v3 main_v5 (broadcastInDim S32x256x256 ![0, 1, 2] bcast_S32x1x256_S32x256x256_0_1_2),
    binary main_v4 main_v5 main_v6 addf,
    binary main_arg0 main_arg0 main_v7 (fun l r => Host.dotGeneral dot_S32x256x3_S32x256x3_S32x256x256_2_2_1_1_0_0 none l r),
    nullary main_cst_1 (constant S_ .f32 0x40000000#32),
    unary main_cst_1 main_v8 (broadcastInDim S32x256x256 ![] bcast_S_S32x256x256),
    binary main_v8 main_v7 main_v9 mulf,
    binary main_v6 main_v9 main_v10 subf,
    nullary main_cst_2 (constant S_ .f32 0x00000000#32),
    unary main_cst_2 main_v11 (broadcastInDim S32x256x256 ![] bcast_S_S32x256x256),
    binary main_v10 main_v11 main_v12 maximumf,
    unary main_v12 main_v13 Host.sqrt,
    nullary main_c (constantI S_ 1 1#1),
    unary main_c main_v14 (broadcastInDim S256x256 ![] bcast_S_S256x256),
    TRef.nullary main_call0.v0 (iotaInDim S256x256 32 0),
    TRef.nullary main_call0.c (constantI S_ 32 0#32),
    TRef.unary main_call0.c main_call0.v1 (broadcastInDim S256x256 ![] bcast_S_S256x256),
    TRef.binary main_call0.v0 main_call0.v1 main_call0.v2 addi,
    TRef.nullary main_call0.v3 (iotaInDim S256x256 32 1),
    TRef.binary main_call0.v2 main_call0.v3 main_call0.v4 (cmpi .sge),
    TRef.nullary main_call0.c_0 (constantI S_ 1 0#1),
    TRef.unary main_call0.c_0 main_call0.v5 (broadcastInDim S256x256 ![] bcast_S_S256x256),
    TRef.ternary main_call0.v4 main_call0.v5 (.of main_v14) main_call0.v6 select,
    unary main_v13 main_v16 (broadcastInDim S32x256x256x1 ![0, 1, 2] bcast_S32x256x256_S32x256x256x1_0_1_2),
    unary main_cst main_v17 (broadcastInDim S1x1x1x32 ![3] bcast_S32_S1x1x1x32_3),
    unary main_v16 main_v18 (broadcastInDim S32x256x256x32 ![0, 1, 2, 3] bcast_S32x256x256x1_S32x256x256x32_0_1_2_3),
    unary main_v17 main_v19 (broadcastInDim S32x256x256x32 ![0, 1, 2, 3] bcast_S1x1x1x32_S32x256x256x32_0_1_2_3),
    binary main_v18 main_v19 main_v20 (cmpf .ole),
    unary main_v15 main_v21 (broadcastInDim S1x256x256x1 ![1, 2] bcast_S256x256_S1x256x256x1_1_2),
    unary main_v21 main_v22 (broadcastInDim S32x256x256x32 ![0, 1, 2, 3] bcast_S1x256x256x1_S32x256x256x32_0_1_2_3),
    binary main_v20 main_v22 main_v23 andi,
    unary main_v23 main_v24 (extui 32 · natLt_1_32),
    nullary main_c_3 (constantI S_ 32 0#32),
    binary main_v24 main_c_3 main_v25 (fun x v => Host.reduce IntOp.addi x v reducesTo_S32x256x256x32_S32x32_d1_2 h_S_),
    unary main_v25 main_v26 (sitofp .f32),
    nullary main_cst_4 (constant S_ .f32 0x43800000#32),
    unary main_cst_4 main_v27 (broadcastInDim S32x32 ![] bcast_S_S32x32),
    binary main_v27 main_v26 main_v28 subf,
    binary main_v28 main_arg1 main_v29 (fun l r => Host.dotGeneral dot_S32x32_S32x128_S32x128_1_0_0_1_n_n none l r),
    unary main_arg2 main_v30 (broadcastInDim S1x128 ![1] bcast_S128_S1x128_1),
    unary main_v30 main_v31 (broadcastInDim S32x128 ![0, 1] bcast_S1x128_S32x128_0_1),
    binary main_v29 main_v31 main_v32 addf,
    TRef.nullary main_call1.cst (constant S_ .f32 0x00000000#32),
    TRef.unary main_call1.cst main_call1.v0 (broadcastInDim S32x128 ![] bcast_S_S32x128),
    TRef.binary (.of main_v32) main_call1.v0 main_call1.v1 maximumf,
    binary main_v33 main_arg3 main_v34 (fun l r => Host.dotGeneral dot_S32x128_S128x64_S32x64_1_0_0_1_n_n none l r),
    unary main_arg4 main_v35 (broadcastInDim S1x64 ![1] bcast_S64_S1x64_1),
    unary main_v35 main_v36 (broadcastInDim S32x64 ![0, 1] bcast_S1x64_S32x64_0_1),
    binary main_v34 main_v36 main_v37 addf ]

set_option maxRecDepth 1024 in
/-- The program is that straight line: the two functions' definitions unfolded at their calls and the
    records at their fields, both sides are one chain of steps once sequencing is reassociated. -/
theorem main_eq (c : Dev nD) : main (F := F) c = seq ops := by
  simp only [main, fn_triu.body, fn_relu.body, seq, bind_assoc, pure_bind]
  rfl

private theorem scopedRefs_eq : (Finset.univ.filter fun b : Ref sig .tc => b.isScoped) = ∅ := by decide
private theorem scopedSems_eq : (Finset.univ.filter fun sm : SemLoc sig => sm.isScoped .tc) = ∅ := by decide

/-- Every operation touches TensorCore buffers only. -/
private theorem ops_sub : (ops : List (HloOp τ sig (Elt F))).Forall fun op => op.bufs ⊆ tcRefs τ sig :=
  ⟨nullary_bufs_sub .., binary_bufs_sub .., nullary_bufs_sub .., binary_bufs_sub .., unary_bufs_sub ..,
    unary_bufs_sub .., unary_bufs_sub .., unary_bufs_sub .., binary_bufs_sub .., binary_bufs_sub ..,
    nullary_bufs_sub .., unary_bufs_sub .., binary_bufs_sub .., binary_bufs_sub .., nullary_bufs_sub ..,
    unary_bufs_sub .., binary_bufs_sub .., unary_bufs_sub .., nullary_bufs_sub .., unary_bufs_sub ..,
    nullary_bufs_sub .., nullary_bufs_sub .., unary_bufs_sub .., binary_bufs_sub .., nullary_bufs_sub ..,
    binary_bufs_sub .., nullary_bufs_sub .., unary_bufs_sub .., ternary_bufs_sub ..,
    unary_bufs_sub .., unary_bufs_sub .., unary_bufs_sub .., unary_bufs_sub .., binary_bufs_sub ..,
    unary_bufs_sub .., unary_bufs_sub .., binary_bufs_sub .., unary_bufs_sub .., nullary_bufs_sub ..,
    binary_bufs_sub .., unary_bufs_sub .., nullary_bufs_sub .., unary_bufs_sub .., binary_bufs_sub ..,
    binary_bufs_sub .., unary_bufs_sub .., unary_bufs_sub .., binary_bufs_sub ..,
    nullary_bufs_sub .., unary_bufs_sub .., binary_bufs_sub ..,
    binary_bufs_sub .., unary_bufs_sub .., unary_bufs_sub .., binary_bufs_sub ..⟩

attribute [local irreducible] Host.reduce Host.reduceAdd Idealize.ShloMosaic.Ideal.matmul Idealize.ShloMosaic.Ideal.hostReduceAdd in
set_option maxRecDepth 8192 in
/-- The fold read at the result buffer is `Term.out` of the contents at the five argument buffers: each
    operation's result is its function's value at the buffer it writes and what was there at any other, so
    the fold is the composition of the functions along the data flow; the stage functions unfold to the same
    composition, and a call's typed references read and write their buffers unchanged. The two sums and the
    three products are kept folded: the equation never looks inside them. -/
private theorem out_eq (V : Valuation τ sig (Elt Ideal)) :
    after (ops (F := Ideal)) V (main_v37 : DevRef τ sig)
      = Term.out (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes the first argument. -/
private theorem arg0_eq (V : Valuation τ sig (Elt F)) :
    after (ops (F := F)) V (main_arg0 : DevRef τ sig) = V (main_arg0 : DevRef τ sig) := by
  simp only [after_cons, after_nil]
  rfl

/-- No operation writes the second argument. -/
private theorem arg1_eq (V : Valuation τ sig (Elt F)) :
    after (ops (F := F)) V (main_arg1 : DevRef τ sig) = V (main_arg1 : DevRef τ sig) := by
  simp only [after_cons, after_nil]
  rfl

/-- No operation writes the third argument. -/
private theorem arg2_eq (V : Valuation τ sig (Elt F)) :
    after (ops (F := F)) V (main_arg2 : DevRef τ sig) = V (main_arg2 : DevRef τ sig) := by
  simp only [after_cons, after_nil]
  rfl

/-- No operation writes the fourth argument. -/
private theorem arg3_eq (V : Valuation τ sig (Elt F)) :
    after (ops (F := F)) V (main_arg3 : DevRef τ sig) = V (main_arg3 : DevRef τ sig) := by
  simp only [after_cons, after_nil]
  rfl

/-- No operation writes the fifth argument. -/
private theorem arg4_eq (V : Valuation τ sig (Elt F)) :
    after (ops (F := F)) V (main_arg4 : DevRef τ sig) = V (main_arg4 : DevRef τ sig) := by
  simp only [after_cons, after_nil]
  rfl

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
          = Term.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
      ⟨(h c main_v37).trans (out_eq (launchContents m c)),
        (h c main_arg0).trans (arg0_eq (launchContents m c)),
        (h c main_arg1).trans (arg1_eq (launchContents m c)),
        (h c main_arg2).trans (arg2_eq (launchContents m c)),
        (h c main_arg3).trans (arg3_eq (launchContents m c)),
        (h c main_arg4).trans (arg4_eq (launchContents m c))⟩)
    (run_seq scopedRefs_eq scopedSems_eq (defs (F := Ideal)) (main (F := Ideal)) (fun _ => ops) main_eq (fun _ => ops_sub) m ρ)

end Cert.ReferenceIdeal.HandRun

end
-- ==== Proof.lean ====
/-
  The Euler characteristic curve of a Rips complex, with a perceptron head: a fused kernel against its
  reference, over the extended reals.

  Both programs map thirty-two clouds of 256 points in three dimensions, and two weight matrices with their
  biases, to a `[32, 64]` array. For each cloud they form the matrix of pairwise distances, count the pairs
  within each of thirty-two thresholds, turn the counts into the curve "points minus edges", and apply the
  same two-layer perceptron (`head`) to the curve's thirty-two values.

  They differ in two places. The kernel takes the squared distance as the sum of the three squared
  coordinate differences, the reference as `|p|² + |q|² − 2 p·q`: the same number when the coordinates are
  real, which the precondition gives (`clouds_real`, `sqDiff_eq_sqGram`). And the kernel counts ORDERED
  pairs over the full square and forms `384 − 1/2 · count`, where the reference counts the strictly upper
  pairs and forms `256 − count`: the distance matrix is symmetric with a zero diagonal and every
  threshold is nonnegative, so the full square holds every point once and every edge twice (`ecc_eq`).
  The weights enter both programs alike, so nothing is asked of them.

  The kernel's side: what one grid point leaves in its output block (`out_block`), and the two blocks
  filling the array (`ArrayValue.run`). The reference's side: its straight line of host operations run to
  the composed term (`HandRun.run`), read entry by entry (`out_apply`). The idealization rewrote no
  operation, so `preserves` has nothing to state.
-/
import proofs.«403404_j10728828306120_3_alg».proof.Defs
import proofs.«403404_j10728828306120_3_alg».proof.Proof.Gen.Kernel
import proofs.«403404_j10728828306120_3_alg».proof.Proof.Gen.Kernel.Skeleton
import proofs.«403404_j10728828306120_3_alg».proof.Proof.Gen.Kernel.Launch
import proofs.«403404_j10728828306120_3_alg».proof.Proof.Gen.Kernel.Points
import proofs.«403404_j10728828306120_3_alg».proof.Proof.Gen.Kernel.Frame
import proofs.«403404_j10728828306120_3_alg».proof.Proof.Gen.KernelIdeal
import proofs.«403404_j10728828306120_3_alg».proof.Proof.Gen.KernelIdeal.Skeleton
import proofs.«403404_j10728828306120_3_alg».proof.Proof.Gen.KernelIdeal.Launch
import proofs.«403404_j10728828306120_3_alg».proof.Proof.Gen.KernelIdeal.Points
import proofs.«403404_j10728828306120_3_alg».proof.Proof.Gen.KernelIdeal.Frame
import proofs.«403404_j10728828306120_3_alg».proof.Proof.Gen.KernelIdeal.Value
import proofs.«403404_j10728828306120_3_alg».proof.Proof.Gen.ReferenceIdeal
import proofs.«403404_j10728828306120_3_alg».proof.Proof.Gen.Pre_finite_inputs
import proofs.«403404_j10728828306120_3_alg».proof.Proof.Counting
import proofs.«403404_j10728828306120_3_alg».proof.Proof.Finite
import proofs.«403404_j10728828306120_3_alg».proof.Proof.KArray
import proofs.«403404_j10728828306120_3_alg».proof.Proof.RefRead
import proofs.«403404_j10728828306120_3_alg».proof.Proof.RefRun
import Idealize.ShloMosaic.Adequacy
import Idealize.ShloMosaic.Init

noncomputable section

namespace Cert.Proof

open Idealize.ShloMosaic Idealize.ShloMosaic.ValueIdx Idealize.SL.Sem Cert.Rips

/-! ## The bridge: one cloud's curve, either way -/

/-- For a cloud of real points the curve through the full count over the coordinate-difference distances is
    the curve counted directly over the Gram-form distances. -/
theorem curve_bridge (X : (⟨3, ![32, 256, 3]⟩ : Shape).Idx → EReal) (hX : ∀ i, ∃ r : ℝ, X i = ((r : ℝ) : EReal))
    (b : Fin 32) :
    eccK (fun i j => distOf (sqDiff (fun d => X (ix3 b i d)) (fun d => X (ix3 b j d))))
      = eccR (fun i j => distOf (sqGram (fun d => X (ix3 b i d)) (fun d => X (ix3 b j d)))) := by
  choose p hp using fun (i : Fin 256) (d : Fin 3) => hX (ix3 b i d)
  have hpt : ∀ i : Fin 256, (fun d => X (ix3 b i d)) = fun d => ((p i d : ℝ) : EReal) := fun i => funext fun d => hp i d
  funext s
  simp only [hpt]
  have hG : (fun i j : Fin 256 => distOf (sqGram (fun d => ((p i d : ℝ) : EReal)) (fun d => ((p j d : ℝ) : EReal))))
      = fun i j => distOf (sqDiff (fun d => ((p i d : ℝ) : EReal)) (fun d => ((p j d : ℝ) : EReal))) := by
    funext i j
    rw [sqDiff_eq_sqGram]
  rw [hG]
  exact ecc_eq _ (fun i j => by rw [sqDiff_symm]) (fun i => distOf_sqDiff_self (p i)) s

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.HandRun.run m ρ)

/-- Both programs end at `head` of each cloud's curve; the curves agree by `curve_bridge`. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2.1, (hagree c).2.2.2.2]
  have hreal := clouds_real _ _ _ _ _ (hpre c)
  funext idx
  obtain ⟨b, o, rfl⟩ : ∃ (b : Fin 32) (o : Fin 64), idx = ix2 b o := ⟨idx 0, idx 1, eq_ix2 idx⟩
  rw [Cert.ReferenceIdeal.Term.out_apply]
  show head (eccR _) _ _ _ _ o = head (eccK _) _ _ _ _ o
  exact congrArg (fun e => head e _ _ _ _ o) (curve_bridge _ hreal b).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
